-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v22_0)) (v1 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22_0) = v0 c
          ∧ r.2.mem ((c.tc : Thread Cert.KernelIdeal.nD Cert.KernelIdeal.τ).loc Cert.KernelIdeal.main_v26) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S65536x1 : Shape := ⟨2, ![65536, 1]⟩
abbrev S256x1024 : Shape := ⟨2, ![256, 1024]⟩
abbrev S256 : Shape := ⟨1, ![256]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S256 : S_.BroadcastsInDim S256 (![] : Fin 0 → Fin S256.rank)
  reducesTo_S256_S_d0 : S256.ReducesTo [0] S_
  bcast_S_S65536x1 : S_.BroadcastsInDim S65536x1 (![] : Fin 0 → Fin S65536x1.rank)
  reducesTo_S65536x1_S_d0_1 : S65536x1.ReducesTo [0, 1] S_

variable [Facts]

def fn_part1 {F : FTy → Type} [FloatOps F] (main_arg1 : IVec S65536x1 32) (main_v13 : IVec S_ 1) (main_v15 : IVec S65536x1 1) (main_c_5 : IVec S_ 32) : IVec S_ 1 :=
  let main_v16 : IVec S65536x1 32 := broadcastInDim S65536x1 ![] bcast_S_S65536x1 main_c_5
  let main_v17 : IVec S65536x1 1 := cmpi .slt main_arg1 main_v16
  let main_v18 : IVec S65536x1 1 := andi main_v15 main_v17
  let main_c_6 : IVec S_ 1 := constantI S_ 1 1#1
  let main_v19 : IVec S_ 1 := (fun x v => Host.reduce IntOp.andi x v reducesTo_S65536x1_S_d0_1 h_S_) main_v18 main_c_6
  let main_v20 : IVec S_ 1 := andi main_v13 main_v19
  main_v20

def fn {F : FTy → Type} [FloatOps F] (main_arg0 : FVec F S65536x1024 .f32) (main_arg1 : IVec S65536x1 32) (main_arg2 : FVec F S256x1024 .f32) (main_arg3 : FVec F S256 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S256x1024 .f32 := Host.absf main_arg2
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_c_4 : IVec S_ 32 := constantI S_ 32 0#32
  let main_v14 : IVec S65536x1 32 := broadcastInDim S65536x1 ![] bcast_S_S65536x1 main_c_4
  let main_v15 : IVec S65536x1 1 := cmpi .sge main_arg1 main_v14
  let main_c_5 : IVec S_ 32 := constantI S_ 32 256#32
  fn_part1 (F := F) main_arg1 main_v13 main_v15 main_c_5
-- ==== Kernel.lean ====
abbrev S65536x1024 : Shape := ⟨2, ![65536, 1024]⟩
abbrev S65536x1 : Shape := ⟨2, ![65536, 1]⟩
abbrev S256x1024 : Shape := ⟨2, ![256, 1024]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S1024x256 : Shape := ⟨2, ![1024, 256]⟩
abbrev S256x128 : Shape := ⟨2, ![256, 128]⟩
abbrev S1 : Shape := ⟨1, ![1]⟩
abbrev S2x256x1024 : Shape := ⟨3, ![2, 256, 1024]⟩
abbrev S2048x1024 : Shape := ⟨2, ![2048, 1024]⟩
abbrev S2048x1 : Shape := ⟨2, ![2048, 1]⟩
abbrev S1x256x1024 : Shape := ⟨3, ![1, 256, 1024]⟩
abbrev S2048x256 : Shape := ⟨2, ![2048, 256]⟩
abbrev S2048 : Shape := ⟨1, ![2048]⟩
abbrev S2048x128 : Shape := ⟨2, ![2048, 128]⟩

abbrev nBuf : Space → Nat
  | .hbm => 42
  | .vmem => 10
  | .smem => 0
  | _ => 0

abbrev bufTy : (tb : Table) → Fin (tcTables nBuf tb) → BufTy
  | .hbm, ⟨0, _⟩ => ⟨S65536x1024, .f32⟩
  | .hbm, ⟨1, _⟩ => ⟨S65536x1, .i32⟩
  | .hbm, ⟨2, _⟩ => ⟨S256x1024, .f32⟩
  | .hbm, ⟨3, _⟩ => ⟨S256, .f32⟩
  | .hbm, ⟨4, _⟩ => ⟨S256x1024, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S1x256, .f32⟩
  | .hbm, ⟨9, _⟩ => ⟨S256x256, .f32⟩
  | .hbm, ⟨10, _⟩ => ⟨S256x256, .f32⟩
  | .hbm, ⟨11, _⟩ => ⟨S256x256, .f32⟩
  | .hbm, ⟨12, _⟩ => ⟨S1024x256, .f32⟩
  | .hbm, ⟨13, _⟩ => ⟨S256x256, .f32⟩
  | .hbm, ⟨14, _⟩ => ⟨S_, .f32⟩
  | .hbm, ⟨15, _⟩ => ⟨S256x256, .f32⟩
  | .hbm, ⟨16, _⟩ => ⟨S256x256, .f32⟩
  | .hbm, ⟨17, _⟩ => ⟨S256x256, .f32⟩
  | .hbm, ⟨18, _⟩ => ⟨S_, .f32⟩
  | .hbm, ⟨19, _⟩ => ⟨S256x256, .f32⟩
  | .hbm, ⟨20, _⟩ => ⟨S256x256, .f32⟩
  | .hbm, ⟨21, _⟩ => ⟨S_, .f32⟩
  | .hbm, ⟨22, _⟩ => ⟨S256, .f32⟩
  | .hbm, ⟨23, _⟩ => ⟨S_, .f32⟩
  | .hbm, ⟨24, _⟩ => ⟨S256x128, .f32⟩
  | .hbm, ⟨25, _⟩ => ⟨S_, .f32⟩
  | .hbm, ⟨26, _⟩ => ⟨S256, .f32⟩
  | .hbm, ⟨27, _⟩ => ⟨S256, .f32⟩
  | .hbm, ⟨28, _⟩ => ⟨S_, .i32⟩
  | .hbm, ⟨29, _⟩ => ⟨S1, .i32⟩
  | .hbm, ⟨30, _⟩ => ⟨S256x128, .f32⟩
  | .hbm, ⟨31, _⟩ => ⟨S_, .i32⟩
  | .hbm, ⟨32, _⟩ => ⟨S1, .i32⟩
  | .hbm, ⟨33, _⟩ => ⟨S256x128, .f32⟩
  | .hbm, ⟨34, _⟩ => ⟨S65536x1, .f32⟩
  | .hbm, ⟨35, _⟩ => ⟨S2x256x1024, .f32⟩
  | .hbm, ⟨36, _⟩ => ⟨S_, .f32⟩
  | .hbm, ⟨37, _⟩ => ⟨S256x1024, .f32⟩
  | .hbm, ⟨38, _⟩ => ⟨S_, .f32⟩
  | .hbm, ⟨39, _⟩ => ⟨S256x1024, .f32⟩
  | .hbm, ⟨40, _⟩ => ⟨S256x1024, .f32⟩
  | .hbm, ⟨41, _⟩ => ⟨S256x1024, .f32⟩
  | .local _ .vmem, ⟨0, _⟩ => ⟨S2048x1024, .f32⟩
  | .local _ .vmem, ⟨1, _⟩ => ⟨S2048x1024, .f32⟩
  | .local _ .vmem, ⟨2, _⟩ => ⟨S2048x1, .i32⟩
  | .local _ .vmem, ⟨3, _⟩ => ⟨S2048x1, .i32⟩
  | .local _ .vmem, ⟨4, _⟩ => ⟨S256x1024, .f32⟩
  | .local _ .vmem, ⟨5, _⟩ => ⟨S256x128, .f32⟩
  | .local _ .vmem, ⟨6, _⟩ => ⟨S2048x1, .f32⟩
  | .local _ .vmem, ⟨7, _⟩ => ⟨S2048x1, .f32⟩
  | .local _ .vmem, ⟨8, _⟩ => ⟨S1x256x1024, .f32⟩
  | .local _ .vmem, ⟨9, _⟩ => ⟨S1x256x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_c : Ref sig .tc := ⟨.hbm, 28, rfl⟩
abbrev main_v18 : Ref sig .tc := ⟨.hbm, 29, rfl⟩
abbrev main_v19 : Ref sig .tc := ⟨.hbm, 30, rfl⟩
abbrev main_c_5 : Ref sig .tc := ⟨.hbm, 31, rfl⟩
abbrev main_v20 : Ref sig .tc := ⟨.hbm, 32, rfl⟩
abbrev main_v21 : Ref sig .tc := ⟨.hbm, 33, rfl⟩
abbrev main_v22_0 : Ref sig .tc := ⟨.hbm, 34, rfl⟩
abbrev main_v22_1 : Ref sig .tc := ⟨.hbm, 35, rfl⟩
abbrev main_cst_6 : Ref sig .tc := ⟨.hbm, 36, rfl⟩
abbrev main_v23 : Ref sig .tc := ⟨.hbm, 37, rfl⟩
abbrev main_cst_7 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  reducesTo_S256x1024_S256_d1 : S256x1024.ReducesTo [1] S256
  h_S_ : 0 < S_.numel
  bcast_S256_S256x1_0 : S256.BroadcastsInDim S256x1 (![0] : Fin 1 → Fin S256x1.rank)
  bcast_S256_S1x256_1 : S256.BroadcastsInDim S1x256 (![1] : Fin 1 → Fin S1x256.rank)
  bcast_S256x1_S256x256_0_1 : S256x1.BroadcastsInDim S256x256 (![0, 1] : Fin 2 → Fin S256x256.rank)
  bcast_S1x256_S256x256_0_1 : S1x256.BroadcastsInDim S256x256 (![0, 1] : Fin 2 → Fin S256x256.rank)
  transposes_S256x1024_S1024x256_1_0 : S256x1024.Transposes [1, 0] S1024x256
  bcast_S_S256x256 : S_.BroadcastsInDim S256x256 (![] : Fin 0 → Fin S256x256.rank)
  reducesTo_S256x256_S256_d1 : S256x256.ReducesTo [1] S256
  bcast_S_S256x128 : S_.BroadcastsInDim S256x128 (![] : Fin 0 → Fin S256x128.rank)
  bcast_S_S256 : S_.BroadcastsInDim S256 (![] : Fin 0 → Fin S256.rank)
  bcast_S_S1 : S_.BroadcastsInDim S1 (![] : Fin 0 → Fin S1.rank)
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  shapeCasts_S256x1024_S1x256x1024 : S256x1024.ShapeCasts S1x256x1024
  inb_S2048x1_S2048x1_0_0 : ∀ a, (![0, 0] : Fin 2 → Nat) a + S2048x1.size a ≤ S2048x1.size a
  h_S2048x1 : 0 < S2048x1.numel
  iota_S2048x256_d1_w32 : S2048x256.Iotas .tc 32 [1]
  broadcasts_S2048x1_S2048x256 : S2048x1.Broadcasts S2048x256
  natLt_1_32 : 1 < 32
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  inb_S2048x1024_S2048x1024_0_0 : ∀ a, (![0, 0] : Fin 2 → Nat) a + S2048x1024.size a ≤ S2048x1024.size a
  h_S2048x1024 : 0 < S2048x1024.numel
  reduces_S2048x1024_S2048 : S2048x1024.Reduces [1] S2048
  shapeCasts_S2048_S2048x1 : S2048.ShapeCasts S2048x1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  slices_S2048x128_o0_0_S2048x1 : S2048x128.Slices ![0, 0] S2048x1
  slices_S2048x128_o0_1_S2048x1 : S2048x128.Slices ![0, 1] S2048x1
  broadcasts_S2048x1_S2048x1024 : S2048x1.Broadcasts S2048x1024
  reducesTo_S2x256x1024_S256x1024_d0 : S2x256x1024.ReducesTo [0] S256x1024
  bcast_S_S256x1024 : S_.BroadcastsInDim S256x1024 (![] : Fin 0 → Fin S256x1024.rank)
  dot_S256x1024_S1024x256_S256x256_1_0_0_1_n_n_wf : DotDims.WF S256x1024 S1024x256 S256x256 [1] [0] [0] [1] [] []
  scatter_S256x128_S1_S256_0_1_1_0_wf : ScatterDims.WF S256x128 S1 S256 [0] [1] [1] 0
  dot_S2048x256_S256x1024_S2048x1024_1_0_0_1_n_n_wf : DotDims.WF S2048x256 S256x1024 S2048x1024 [1] [0] [0] [1] [] []
  dot_S2048x256_S256x128_S2048x128_1_0_0_1_n_n_wf : DotDims.WF S2048x256 S256x128 S2048x128 [1] [0] [0] [1] [] []
  dot_S2048x256_S2048x1024_S256x1024_0_0_1_1_n_n_wf : DotDims.WF S2048x256 S2048x1024 S256x1024 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S65536x1024.size a
  hwx0_0 : ∀ i : grid0.Coords, EltTy.bits .f32 = 32 ∨ (Rect.block (s := S65536x1024) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S65536x1.size a
  hwx0_1 : ∀ i : grid0.Coords, EltTy.bits .i32 = 32 ∨ (Rect.block (s := S65536x1) S2048x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S256x1024.size a
  hwx0_2 : ∀ i : grid0.Coords, EltTy.bits .f32 = 32 ∨ (Rect.block (s := S256x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1.size a ≤ S65536x1.size a
  hwx0_4 : ∀ i : grid0.Coords, EltTy.bits .f32 = 32 ∨ (Rect.block (s := S65536x1) S2048x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x1024.size a ≤ S2x256x1024.size a
  hwx0_5 : ∀ i : grid0.Coords, EltTy.bits .f32 = 32 ∨ (Rect.block (s := S2x256x1024) S1x256x1024.size (cc0_transform_5 i) (hinb0_5 i)).WholeWords (EltTy.packing .f32)

variable [Facts₀]

def dot_S256x1024_S1024x256_S256x256_1_0_0_1_n_n : DotDims S256x1024 S1024x256 S256x256 where
  lhsContracting := [1]
  rhsContracting := [0]
  lhsNonContracting := [0]
  rhsNonContracting := [1]
  lhsBatch := []
  rhsBatch := []
  wf := dot_S256x1024_S1024x256_S256x256_1_0_0_1_n_n_wf
def scatter_S256x128_S1_S256_0_1_1_0 : ScatterDims S256x128 S1 S256 where
  updateWindowDims := [0]
  insertedWindowDims := [1]
  scatterDimsToOperandDims := [1]
  indexVectorDim := 0
  wf := scatter_S256x128_S1_S256_0_1_1_0_wf
def dot_S2048x256_S256x1024_S2048x1024_1_0_0_1_n_n : DotDims S2048x256 S256x1024 S2048x1024 where
  lhsContracting := [1]
  rhsContracting := [0]
  lhsNonContracting := [0]
  rhsNonContracting := [1]
  lhsBatch := []
  rhsBatch := []
  wf := dot_S2048x256_S256x1024_S2048x1024_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x256_S2048x1024_S256x1024_0_0_1_1_n_n : DotDims S2048x256 S2048x1024 S256x1024 where
  lhsContracting := [0]
  rhsContracting := [0]
  lhsNonContracting := [1]
  rhsNonContracting := [1]
  lhsBatch := []
  rhsBatch := []
  wf := dot_S2048x256_S2048x1024_S256x1024_0_0_1_1_n_n_wf

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22_0) S2048x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v22_1) S1x256x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S65536x1024 : Shape := ⟨2, ![65536, 1024]⟩
abbrev S65536x1 : Shape := ⟨2, ![65536, 1]⟩
abbrev S256x1024 : Shape := ⟨2, ![256, 1024]⟩
abbrev S256 : Shape := ⟨1, ![256]⟩
abbrev S65536 : Shape := ⟨1, ![65536]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S1024x256 : Shape := ⟨2, ![1024, 256]⟩

abbrev nBuf : Space → Nat
  | .hbm => 72
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x1, .i32⟩
  | .hbm, ⟨2, _⟩ => ⟨S256x1024, .f32⟩
  | .hbm, ⟨3, _⟩ => ⟨S256, .f32⟩
  | .hbm, ⟨4, _⟩ => ⟨S65536, .i32⟩
  | .hbm, ⟨5, _⟩ => ⟨S_, .i32⟩
  | .hbm, ⟨6, _⟩ => ⟨S65536, .i32⟩
  | .hbm, ⟨7, _⟩ => ⟨S65536, .i1⟩
  | .hbm, ⟨8, _⟩ => ⟨S_, .i32⟩
  | .hbm, ⟨9, _⟩ => ⟨S65536, .i32⟩
  | .hbm, ⟨10, _⟩ => ⟨S65536, .i32⟩
  | .hbm, ⟨11, _⟩ => ⟨S65536, .i32⟩
  | .hbm, ⟨12, _⟩ => ⟨S65536x1, .i32⟩
  | .hbm, ⟨13, _⟩ => ⟨S65536x1024, .f32⟩
  | .hbm, ⟨14, _⟩ => ⟨S65536x1024, .f32⟩
  | .hbm, ⟨15, _⟩ => ⟨S65536x1024, .f32⟩
  | .hbm, ⟨16, _⟩ => ⟨S_, .f32⟩
  | .hbm, ⟨17, _⟩ => ⟨S65536, .f32⟩
  | .hbm, ⟨18, _⟩ => ⟨S256x1024, .f32⟩
  | .hbm, ⟨19, _⟩ => ⟨S_, .f32⟩
  | .hbm, ⟨20, _⟩ => ⟨S256, .f32⟩
  | .hbm, ⟨21, _⟩ => ⟨S256x1, .f32⟩
  | .hbm, ⟨22, _⟩ => ⟨S1x256, .f32⟩
  | .hbm, ⟨23, _⟩ => ⟨S256x256, .f32⟩
  | .hbm, ⟨24, _⟩ => ⟨S256x256, .f32⟩
  | .hbm, ⟨25, _⟩ => ⟨S256x256, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S1024x256, .f32⟩
  | .hbm, ⟨30, _⟩ => ⟨S256x256, .f32⟩
  | .hbm, ⟨31, _⟩ => ⟨S256x256, .f32⟩
  | .hbm, ⟨32, _⟩ => ⟨S_, .f32⟩
  | .hbm, ⟨33, _⟩ => ⟨S256x256, .f32⟩
  | .hbm, ⟨34, _⟩ => ⟨S256x256, .f32⟩
  | .hbm, ⟨35, _⟩ => ⟨S_, .f32⟩
  | .hbm, ⟨36, _⟩ => ⟨S256, .f32⟩
  | .hbm, ⟨37, _⟩ => ⟨S_, .i32⟩
  | .hbm, ⟨38, _⟩ => ⟨S65536, .i32⟩
  | .hbm, ⟨39, _⟩ => ⟨S65536, .i1⟩
  | .hbm, ⟨40, _⟩ => ⟨S_, .i32⟩
  | .hbm, ⟨41, _⟩ => ⟨S65536, .i32⟩
  | .hbm, ⟨42, _⟩ => ⟨S65536, .i32⟩
  | .hbm, ⟨43, _⟩ => ⟨S65536, .i32⟩
  | .hbm, ⟨44, _⟩ => ⟨S65536x1, .i32⟩
  | .hbm, ⟨45, _⟩ => ⟨S65536, .f32⟩
  | .hbm, ⟨46, _⟩ => ⟨S_, .f32⟩
  | .hbm, ⟨47, _⟩ => ⟨S65536, .f32⟩
  | .hbm, ⟨48, _⟩ => ⟨S65536, .f32⟩
  | .hbm, ⟨49, _⟩ => ⟨S65536, .f32⟩
  | .hbm, ⟨50, _⟩ => ⟨S65536x1, .f32⟩
  | .hbm, ⟨51, _⟩ => ⟨S_, .i32⟩
  | .hbm, ⟨52, _⟩ => ⟨S65536, .i32⟩
  | .hbm, ⟨53, _⟩ => ⟨S65536, .i1⟩
  | .hbm, ⟨54, _⟩ => ⟨S_, .i32⟩
  | .hbm, ⟨55, _⟩ => ⟨S65536, .i32⟩
  | .hbm, ⟨56, _⟩ => ⟨S65536, .i32⟩
  | .hbm, ⟨57, _⟩ => ⟨S65536, .i32⟩
  | .hbm, ⟨58, _⟩ => ⟨S65536x1, .i32⟩
  | .hbm, ⟨59, _⟩ => ⟨S65536, .f32⟩
  | .hbm, ⟨60, _⟩ => ⟨S65536, .f32⟩
  | .hbm, ⟨61, _⟩ => ⟨S65536x1, .f32⟩
  | .hbm, ⟨62, _⟩ => ⟨S65536x1024, .f32⟩
  | .hbm, ⟨63, _⟩ => ⟨S65536x1024, .f32⟩
  | .hbm, ⟨64, _⟩ => ⟨S_, .f32⟩
  | .hbm, ⟨65, _⟩ => ⟨S256x1024, .f32⟩
  | .hbm, ⟨66, _⟩ => ⟨S65536x1, .i32⟩
  | .hbm, ⟨67, _⟩ => ⟨S256x1024, .f32⟩
  | .hbm, ⟨68, _⟩ => ⟨S_, .f32⟩
  | .hbm, ⟨69, _⟩ => ⟨S256x1024, .f32⟩
  | .hbm, ⟨70, _⟩ => ⟨S256x1024, .f32⟩
  | .hbm, ⟨71, _⟩ => ⟨S256x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_c_5 : Ref sig .tc := ⟨.hbm, 37, rfl⟩
abbrev main_v26 : Ref sig .tc := ⟨.hbm, 38, rfl⟩
abbrev main_v27 : Ref sig .tc := ⟨.hbm, 39, rfl⟩
abbrev main_c_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_c_8 : Ref sig .tc := ⟨.hbm, 51, rfl⟩
abbrev main_v37 : Ref sig .tc := ⟨.hbm, 52, rfl⟩
abbrev main_v38 : Ref sig .tc := ⟨.hbm, 53, rfl⟩
abbrev main_c_9 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_10 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_11 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩

abbrev nD : Nat := 1
abbrev τ : Topo := Topo.v7x

variable {F : FTy → Type} [FloatOps F]

class Facts₀ : Prop where
  shapeCasts_S65536x1_S65536 : S65536x1.ShapeCasts S65536
  bcast_S_S65536 : S_.BroadcastsInDim S65536 (![] : Fin 0 → Fin S65536.rank)
  bcast_S65536_S65536x1_0 : S65536.BroadcastsInDim S65536x1 (![0] : Fin 1 → Fin S65536x1.rank)
  reducesTo_S65536x1024_S65536_d1 : S65536x1024.ReducesTo [1] S65536
  h_S_ : 0 < S_.numel
  reducesTo_S256x1024_S256_d1 : S256x1024.ReducesTo [1] S256
  bcast_S256_S256x1_0 : S256.BroadcastsInDim S256x1 (![0] : Fin 1 → Fin S256x1.rank)
  bcast_S256_S1x256_1 : S256.BroadcastsInDim S1x256 (![1] : Fin 1 → Fin S1x256.rank)
  bcast_S256x1_S256x256_0_1 : S256x1.BroadcastsInDim S256x256 (![0, 1] : Fin 2 → Fin S256x256.rank)
  bcast_S1x256_S256x256_0_1 : S1x256.BroadcastsInDim S256x256 (![0, 1] : Fin 2 → Fin S256x256.rank)
  bcast_S_S256x1024 : S_.BroadcastsInDim S256x1024 (![] : Fin 0 → Fin S256x1024.rank)
  transposes_S256x1024_S1024x256_1_0 : S256x1024.Transposes [1, 0] S1024x256
  bcast_S_S256x256 : S_.BroadcastsInDim S256x256 (![] : Fin 0 → Fin S256x256.rank)
  reducesTo_S256x256_S256_d1 : S256x256.ReducesTo [1] S256
  bcast_S65536x1_S65536x1024_0_1 : S65536x1.BroadcastsInDim S65536x1024 (![0, 1] : Fin 2 → Fin S65536x1024.rank)
  gather_S256x1024_S65536x1_S65536x1024_1_0_n_n_0_1_11024_wf : GatherDims.WF S256x1024 S65536x1 S65536x1024 [1] [0] [] [0] [] 1 ![1, 1024]
  dot_S256x1024_S1024x256_S256x256_1_0_0_1_n_n_wf : DotDims.WF S256x1024 S1024x256 S256x256 [1] [0] [0] [1] [] []
  gather_S256_S65536x1_S65536_n_0_n_n_0_1_1_wf : GatherDims.WF S256 S65536x1 S65536 [] [0] [] [0] [] 1 ![1]
  scatter_S256x1024_S65536x1_S65536x1024_1_0_0_1_wf : ScatterDims.WF S256x1024 S65536x1 S65536x1024 [1] [0] [0] 1

variable [Facts₀]

def gather_S256x1024_S65536x1_S65536x1024_1_0_n_n_0_1_11024 : GatherDims S256x1024 S65536x1 S65536x1024 where
  offsetDims := [1]
  collapsedSliceDims := [0]
  operandBatchingDims := []
  startIndicesBatchingDims := []
  startIndexMap := [0]
  indexVectorDim := 1
  sliceSizes := ![1, 1024]
  wf := gather_S256x1024_S65536x1_S65536x1024_1_0_n_n_0_1_11024_wf
def dot_S256x1024_S1024x256_S256x256_1_0_0_1_n_n : DotDims S256x1024 S1024x256 S256x256 where
  lhsContracting := [1]
  rhsContracting := [0]
  lhsNonContracting := [0]
  rhsNonContracting := [1]
  lhsBatch := []
  rhsBatch := []
  wf := dot_S256x1024_S1024x256_S256x256_1_0_0_1_n_n_wf
def gather_S256_S65536x1_S65536_n_0_n_n_0_1_1 : GatherDims S256 S65536x1 S65536 where
  offsetDims := []
  collapsedSliceDims := [0]
  operandBatchingDims := []
  startIndicesBatchingDims := []
  startIndexMap := [0]
  indexVectorDim := 1
  sliceSizes := ![1]
  wf := gather_S256_S65536x1_S65536_n_0_n_n_0_1_1_wf
def scatter_S256x1024_S65536x1_S65536x1024_1_0_0_1 : ScatterDims S256x1024 S65536x1 S65536x1024 where
  updateWindowDims := [1]
  insertedWindowDims := [0]
  scatterDimsToOperandDims := [0]
  indexVectorDim := 1
  wf := scatter_S256x1024_S65536x1_S65536x1024_1_0_0_1_wf

class Facts : Prop extends Facts₀ where

variable [Facts]
-- ==== Proof.Spec.lean ====
/-
  What both programs compute, as functions of the four argument arrays over the extended reals.

  X : [65536, 1024] features, C : [256, 1024] cluster centres, W : [256] class weights, and the label of row i as
  lab i : Fin 256 (the label range is the statement's precondition). With
    sq c        = Σ_k C[c,k]²                       gram c c' = Σ_k C[c,k]·C[c',k]
    pair c c'   = max (sq c + sq c' − 2·gram c c') 0     pcd c = Σ_c' pair c c'      den c = pcd c + 1
    diff i d    = X[i,d] − C[lab i, d]              nume i = Σ_d diff i d²
  the first result is  loss[i] = nume i / den (lab i)  and the second
    new[c,d] = C[c,d] − γ · Σ_{i : lab i = c} (W[lab i] / den (lab i)) · diff i d .
  The three float literals (2, 1, γ) are kept as the words both programs print.
-/
import Idealize.ShloMosaic.PureOps.Ideal
import Idealize.ShloMosaic.Lib.ValueIdx

noncomputable section

namespace Cert.Spec

open Idealize.ShloMosaic Idealize.ShloMosaic.ValueIdx

/-- The literal 2.0 of the pairwise distance, 1.0 added to the denominator, and the step size γ. -/
abbrev two : EReal := Ideal.ofBits .f32 0x40000000#32
abbrev one : EReal := Ideal.ofBits .f32 0x3F800000#32
abbrev gamma : EReal := Ideal.ofBits .f32 0x3C23D70A#32

variable (X : (⟨2, ![65536, 1024]⟩ : Shape).Idx → EReal) (C : (⟨2, ![256, 1024]⟩ : Shape).Idx → EReal)
  (W : (⟨1, ![256]⟩ : Shape).Idx → EReal) (lab : Fin 65536 → Fin 256)

/-- Squared norm of centre c. -/
def sq (c : Fin 256) : EReal := ∑ k : Fin 1024, C (ix2 c k) * C (ix2 c k)
/-- Inner product of centres c and c'. -/
def gram (c c' : Fin 256) : EReal := ∑ k : Fin 1024, C (ix2 c k) * C (ix2 c' k)
/-- Clamped squared distance between centres c and c'. -/
def pair (c c' : Fin 256) : EReal := max (sq C c + sq C c' - two * gram C c c') 0
/-- Sum of the clamped squared distances from centre c to every centre. -/
def pcd (c : Fin 256) : EReal := ∑ c' : Fin 256, pair C c c'
/-- The denominator of class c. -/
def den (c : Fin 256) : EReal := pcd C c + one
/-- Row i less its own centre, at column d. -/
def diff (i : Fin 65536) (d : Fin 1024) : EReal := X (ix2 i d) - C (ix2 (lab i) d)
/-- Squared distance of row i to its centre. -/
def nume (i : Fin 65536) : EReal := ∑ d : Fin 1024, diff X C lab i d * diff X C lab i d
/-- The loss of row i. -/
def lossAt (i : Fin 65536) : EReal := Ideal.div (nume X C lab i) (den C (lab i))
/-- Row i's weight over its denominator. -/
def coef (i : Fin 65536) : EReal := Ideal.div (W (ix1 (lab i))) (den C (lab i))
/-- Row i's contribution to its centre's update, at column d. -/
def contrib (i : Fin 65536) (d : Fin 1024) : EReal := coef C W lab i * diff X C lab i d
/-- The weighted update of centre c at column d: the contributions of the rows labelled c. -/
def wdc (c : Fin 256) (d : Fin 1024) : EReal := ∑ i : Fin 65536, if lab i = c then contrib X C W lab i d else 0

/-- First result: the per-row loss, as a [65536, 1] array. -/
def out0 : (⟨2, ![65536, 1]⟩ : Shape).Idx → EReal := fun j => lossAt X C lab (j 0)
/-- Second result: the updated centres. -/
def out1 : (⟨2, ![256, 1024]⟩ : Shape).Idx → EReal := fun j => C j - gamma * wdc X C W lab (j 0) (j 1)

/-! ## The same update summed the way a tiled accumulation does: 32 tiles of 2048 rows, two halves of 16 tiles -/

/-- Row r of tile n (tiles are numbered 0 … 31; the number is taken mod 32 so that the function is total). -/
def rowN (n : ℕ) (r : Fin 2048) : Fin 65536 := ⟨(n % 32) * 2048 + r.val, by have := r.isLt; omega⟩
/-- Tile n's part of the update of centre c at column d: a one-hot row times the contributions. -/
def tile (n : ℕ) (c : Fin 256) (d : Fin 1024) : EReal :=
  ∑ r : Fin 2048, (if lab (rowN n r) = c then (1 : EReal) else 0) * contrib X C W lab (rowN n r) d
/-- The running sum after tile n within its half: tiles 16·(n/16) … n. -/
def accN (n : ℕ) (c : Fin 256) (d : Fin 1024) : EReal := ∑ s ∈ Finset.Icc (16 * (n / 16)) n, tile X C W lab s c d

/-- The real-to-extended-real coercion commutes with a finite sum. -/
private theorem coe_finsum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The pair (tile, row in tile) ↦ global row s·2048 + r is a bijection of 32 × 2048 onto 65536. -/
private def tileEquiv : Fin 32 × Fin 2048 ≃ Fin 65536 where
  toFun p := ⟨p.1.val * 2048 + p.2.val, by have := p.1.isLt; have := p.2.isLt; omega⟩
  invFun i := (⟨i.val / 2048, by have := i.isLt; omega⟩, ⟨i.val % 2048, by omega⟩)
  left_inv p := by
    rcases p with ⟨⟨s, hs⟩, ⟨r, hr⟩⟩
    simp only [Prod.mk.injEq, Fin.mk.injEq]
    constructor <;> omega
  right_inv i := by
    rcases i with ⟨i, hi⟩
    simp only [Fin.mk.injEq]
    omega

/-- Summing over the 32 tiles and the 2048 rows of each is summing over all 65536 rows. -/
private theorem sum_tiles (g : Fin 65536 → EReal) :
    (∑ s ∈ Finset.range 32, ∑ r : Fin 2048, g (rowN s r)) = ∑ i : Fin 65536, g i := by
  rw [Finset.sum_range (fun s => ∑ r : Fin 2048, g (rowN s r))]
  refine (Fintype.sum_prod_type' (fun (s : Fin 32) (r : Fin 2048) => g (rowN s.val r))).symm.trans ?_
  refine Fintype.sum_equiv tileEquiv _ _ ?_
  rintro ⟨⟨s, hs⟩, r⟩
  simp only [tileEquiv, rowN, Equiv.coe_fn_mk, Nat.mod_eq_of_lt hs]

/-- A one-hot row picks one entry. -/
theorem onehot_sum {n : ℕ} (a : Fin n) (f : Fin n → EReal) : (∑ c : Fin n, (if a = c then (1 : EReal) else 0) * f c) = f a := by
  rw [Finset.sum_eq_single a]
  · rw [if_pos rfl, one_mul]
  · intro b _ hb
    rw [if_neg (Ne.symm hb), zero_mul]
  · intro h; exact absurd (Finset.mem_univ a) h

/-- At the first tile of a half the running sum is that tile's part. -/
theorem accN_reset (n : ℕ) (h : n % 16 = 0) (c : Fin 256) (d : Fin 1024) : accN X C W lab n c d = tile X C W lab n c d := by
  unfold accN
  -- 16 divides n, so the interval of tiles is the single tile n
  have h1 : 16 * (n / 16) = n := by omega
  rw [h1, Finset.Icc_self, Finset.sum_singleton]

/-- At any other tile it is the previous running sum plus the tile's part. -/
theorem accN_step (n : ℕ) (h : ¬ n % 16 = 0) (c : Fin 256) (d : Fin 1024) :
    accN X C W lab n c d = accN X C W lab (n - 1) c d + tile X C W lab n c d := by
  unfold accN
  -- n and n - 1 lie in the same half, and the interval up to n is the interval up to n - 1 with n added
  have h1 : 16 * ((n - 1) / 16) = 16 * (n / 16) := by omega
  have h2 : Finset.Icc (16 * (n / 16)) n = insert n (Finset.Icc (16 * (n / 16)) (n - 1)) := by
    ext x; simp only [Finset.mem_Icc, Finset.mem_insert]; omega
  have h3 : n ∉ Finset.Icc (16 * (n / 16)) (n - 1) := by
    simp only [Finset.mem_Icc]; omega
  rw [h1, h2, Finset.sum_insert h3, add_comm]

/-- The two halves' totals add up to the update: every row lies in exactly one tile. -/
theorem wdc_halves (c : Fin 256) (d : Fin 1024) :
    (∑ p : Fin 2, accN X C W lab (16 * p.val + 15) c d) = wdc X C W lab c d := by
  rw [Fin.sum_univ_two]
  unfold accN
  -- the halves are tiles 0 … 15 and tiles 16 … 31
  show (∑ s ∈ Finset.Icc 0 15, tile X C W lab s c d) + (∑ s ∈ Finset.Icc 16 31, tile X C W lab s c d) = _
  have hd : Disjoint (Finset.Icc 0 15) (Finset.Icc 16 31) := by
    rw [Finset.disjoint_left]; intro x h1 h2; simp only [Finset.mem_Icc] at h1 h2; omega
  have hU : Finset.Icc 0 15 ∪ Finset.Icc 16 31 = Finset.range 32 := by
    ext x; simp only [Finset.mem_union, Finset.mem_Icc, Finset.mem_range]; omega
  rw [← Finset.sum_union hd, hU]
  unfold tile wdc
  -- every row is row r of exactly one tile s
  refine (sum_tiles (fun i => (if lab i = c then (1 : EReal) else 0) * contrib X C W lab i d)).trans ?_
  refine Finset.sum_congr rfl (fun i _ => ?_)
  -- a one-hot entry times x is x at the label and 0 elsewhere
  by_cases hi : lab i = c
  · rw [if_pos hi, if_pos hi, one_mul]
  · rw [if_neg hi, if_neg hi, zero_mul]

/-- Over finite centres the factor 2 moves inside the inner product. -/
theorem two_gram (hC : ∀ j, ∃ r : ℝ, C j = (r : EReal)) (c c' : Fin 256) :
    two * gram C c c' = ∑ k : Fin 1024, (two * C (ix2 c k)) * C (ix2 c' k) := by
  choose f hf using hC
  -- the word 0x40000000 is the real number 2
  have h2 : Ideal.ofBits .f32 0x40000000#32 = ((2 : ℝ) : EReal) := by
    simp [Ideal.ofBits, Ideal.ieee, -EReal.coe_mul]; norm_num
  unfold gram
  show Ideal.ofBits .f32 0x40000000#32 * _ = ∑ k : Fin 1024, (Ideal.ofBits .f32 0x40000000#32 * _) * _
  rw [h2]
  -- every factor is a real, so the identity is distributivity and associativity over the reals
  simp only [hf, ← EReal.coe_mul]
  rw [← coe_finsum, ← coe_finsum, ← EReal.coe_mul, Finset.mul_sum]
  simp only [mul_assoc]

end Cert.Spec

end
-- ==== Proof.KDefs.lean ====
/-
  Names for the kernel side: the four argument arrays of a device as plain functions, the hypothesis that the label
  column holds the labels lab, and each input window's block at a grid point at its literal type.
-/
import proofs.«409492_j58514634440869_1_alg».proof.Proof.Gen.KernelIdeal.Frame
import proofs.«409492_j58514634440869_1_alg».proof.Proof.Spec

noncomputable section

namespace Cert.KernelIdeal.KVal

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- Device c's features, label column, centres and class weights. -/
abbrev Xa (c : Dev nD) : S65536x1024.Idx → EReal := m ((c : Thread nD τ).loc main_arg0)
abbrev La (c : Dev nD) : S65536x1.Idx → BitVec 32 := m ((c : Thread nD τ).loc main_arg1)
abbrev Ca (c : Dev nD) : S256x1024.Idx → EReal := m ((c : Thread nD τ).loc main_arg2)
abbrev Wa (c : Dev nD) : S256.Idx → EReal := m ((c : Thread nD τ).loc main_arg3)

/-- The label column of device c holds the labels lab, each a class index below 256. -/
def Labelled (c : Dev nD) (lab : Fin 65536 → Fin 256) : Prop :=
  ∀ i : Fin 65536, La m c (ix2 i 0) = BitVec.ofNat 32 (lab i).val

/-- The blocks of the four input windows at point t: 2048 rows of features, their labels, all centres, the side table. -/
abbrev fblk (c : Dev nD) (t : Fin cfg0.N) : Vec Ideal S2048x1024 .f32 := iblk m c 0 t
abbrev lblk (c : Dev nD) (t : Fin cfg0.N) : Vec Ideal S2048x1 .i32 := iblk m c 1 t
abbrev cblk (c : Dev nD) (t : Fin cfg0.N) : Vec Ideal S256x1024 .f32 := iblk m c 2 t
abbrev ablk (c : Dev nD) (t : Fin cfg0.N) : Vec Ideal S256x128 .f32 := iblk m c 3 t
/-- The [256, 128] side table as the region finds it: column 0 the denominators, column 1 the class weights. -/
abbrev auxArr (c : Dev nD) : S256x128.Idx → EReal := V m c main_v21

end Cert.KernelIdeal.KVal

end
-- ==== Proof.KPieces.lean ====
/-
  What one run of the kernel body leaves in its two output blocks, as the body's own arithmetic of the input blocks:
  the loss block is the quotient payload in both control cases; the update block is the previous block plus the
  one-hot product, the previous block being the zero block the body has just stored at the first tile of a half.
-/
import proofs.«409492_j58514634440869_1_alg».proof.Proof.Gen.KernelIdeal.Frame
import Idealize.ShloMosaic.Lib.Pipeline.Value
import Idealize.ShloMosaic.Lib.Tactic

set_option maxRecDepth 16384

noncomputable section

namespace Cert.KernelIdeal.KVal

open Idealize.ShloMosaic Idealize.ShloMosaic.TcCoe Idealize.ShloMosaic.Tactic Idealize.SL.Sem
open Cert.KernelIdeal Cert.KernelIdeal.Gen

variable {F : FTy → Type} [FloatOps F]

/-- The zero offsets of a rank-2 block, as a constant function. -/
private theorem hz : (![0, 0] : Fin 2 → Nat) = fun _ => 0 := funext fun a => by fin_cases a <;> rfl
/-- The zero offsets of a rank-3 block, as a constant function. -/
private theorem hz3 : (![0, 0, 0] : Fin 3 → Nat) = fun _ => 0 := funext fun a => by fin_cases a <;> rfl

/-- First tile of a half: the loss block is the quotient of the row sums by the gathered denominators. -/
theorem loss_A (c : Dev nD) (i : grid0.Coords) (arg2 : Memref sig .tc .vmem S2048x1024 .f32) (harg2 : arg2.IsWhole) (arg3 : Memref sig .tc .vmem S2048x1 .i32) (harg3 : arg3.IsWhole) (arg4 : Memref sig .tc .vmem S256x1024 .f32) (harg4 : arg4.IsWhole) (arg5 : Memref sig .tc .vmem S256x128 .f32) (harg5 : arg5.IsWhole) (arg6 : Memref sig .tc .vmem S2048x1 .f32) (harg6 : arg6.IsWhole) (arg7 : Memref sig .tc .vmem S1x256x1024 .f32) (harg7 : arg7.IsWhole) (hc0 : cond0_0 i)
    (x0 : Vec F S2048x1024 .f32) (x1 : Vec F S2048x1 .i32) (x2 : Vec F S256x1024 .f32) (x3 : Vec F S256x128 .f32) :
    out0_A_4 c i arg2 harg2 arg3 harg3 arg4 harg4 arg5 harg5 arg6 harg6 arg7 harg7 hc0 x0 x1 x2 x3 = k0_pay8 x1 x2 x0 x3 := by
  unfold out0_A_4
  rw [View.read_writes_eq_canon _ _ _ (cover0_A_4 c i arg2 harg2 arg3 harg3 arg4 harg4 arg5 harg5 arg6 harg6 arg7 harg7 hc0 x0 x1 x2 x3)]
  unfold kernelRun0_A
  dsimp only
  sl_unfold_words
  rw [View.canon_unit_zero hz]
  simp only [View.readAt_eq_ld, harg2.read_unread, harg3.read_unread, harg4.read_unread, harg5.read_unread,
    harg6.read_unread, harg7.read_unread, View.ld_unit_zero (S := S2048x1) hz, View.ld_unit_zero (S := S256x1024) hz,
    View.ld_unit_zero (S := S2048x1024) hz, View.ld_unit_zero (S := S256x128) hz]

/-- Any other tile: the same quotient; the block the update window held before is not read by it. -/
theorem loss_B (c : Dev nD) (i : grid0.Coords) (arg2 : Memref sig .tc .vmem S2048x1024 .f32) (harg2 : arg2.IsWhole) (arg3 : Memref sig .tc .vmem S2048x1 .i32) (harg3 : arg3.IsWhole) (arg4 : Memref sig .tc .vmem S256x1024 .f32) (harg4 : arg4.IsWhole) (arg5 : Memref sig .tc .vmem S256x128 .f32) (harg5 : arg5.IsWhole) (arg6 : Memref sig .tc .vmem S2048x1 .f32) (harg6 : arg6.IsWhole) (arg7 : Memref sig .tc .vmem S1x256x1024 .f32) (harg7 : arg7.IsWhole) (hc0 : ¬cond0_0 i)
    (x0 : Vec F S2048x1024 .f32) (x1 : Vec F S2048x1 .i32) (x2 : Vec F S256x1024 .f32) (x3 : Vec F S256x128 .f32) (xo5 : Vec F S1x256x1024 .f32) :
    out0_B_4 c i arg2 harg2 arg3 harg3 arg4 harg4 arg5 harg5 arg6 harg6 arg7 harg7 hc0 x0 x1 x2 x3 xo5 = k0_pay8 x1 x2 x0 x3 := by
  unfold out0_B_4
  rw [View.read_writes_eq_canon _ _ _ (cover0_B_4 c i arg2 harg2 arg3 harg3 arg4 harg4 arg5 harg5 arg6 harg6 arg7 harg7 hc0 x0 x1 x2 x3 xo5)]
  unfold kernelRun0_B
  dsimp only
  sl_unfold_words
  rw [View.canon_unit_zero hz]
  simp only [View.readAt_eq_ld, harg2.read_unread, harg3.read_unread, harg4.read_unread, harg5.read_unread,
    harg6.read_unread, harg7.read_unread, View.ld_unit_zero (S := S2048x1) hz, View.ld_unit_zero (S := S256x1024) hz,
    View.ld_unit_zero (S := S2048x1024) hz, View.ld_unit_zero (S := S256x128) hz]

/-- First tile of a half: the update block is the zero block just stored plus this tile's one-hot product. -/
theorem acc_A (c : Dev nD) (i : grid0.Coords) (arg2 : Memref sig .tc .vmem S2048x1024 .f32) (harg2 : arg2.IsWhole) (arg3 : Memref sig .tc .vmem S2048x1 .i32) (harg3 : arg3.IsWhole) (arg4 : Memref sig .tc .vmem S256x1024 .f32) (harg4 : arg4.IsWhole) (arg5 : Memref sig .tc .vmem S256x128 .f32) (harg5 : arg5.IsWhole) (arg6 : Memref sig .tc .vmem S2048x1 .f32) (harg6 : arg6.IsWhole) (arg7 : Memref sig .tc .vmem S1x256x1024 .f32) (harg7 : arg7.IsWhole) (hc0 : cond0_0 i)
    (x0 : Vec F S2048x1024 .f32) (x1 : Vec F S2048x1 .i32) (x2 : Vec F S256x1024 .f32) (x3 : Vec F S256x128 .f32) :
    out0_A_5 c i arg2 harg2 arg3 harg3 arg4 harg4 arg5 harg5 arg6 harg6 arg7 harg7 hc0 x0 x1 x2 x3 = k0_pay1 (k0_pay9 x1 x2 x0 x3 (k0_pay2 (F := F))) := by
  unfold out0_A_5
  rw [View.read_writes_eq_canon _ _ _ (cover0_A_5 c i arg2 harg2 arg3 harg3 arg4 harg4 arg5 harg5 arg6 harg6 arg7 harg7 hc0 x0 x1 x2 x3)]
  unfold kernelRun0_A
  dsimp only
  sl_unfold_words
  rw [View.canon_cons_unit_zero (S := S1x256x1024) hz3, View.readCov_unit_zero (S := S1x256x1024) _ hz3]
  simp only [View.readAt_eq_ld, harg2.read_unread, harg3.read_unread, harg4.read_unread, harg5.read_unread,
    harg6.read_unread, harg7.read_unread, View.ld_unit_zero (S := S2048x1) hz, View.ld_unit_zero (S := S256x1024) hz,
    View.ld_unit_zero (S := S2048x1024) hz, View.ld_unit_zero (S := S256x128) hz,
    View.ld_unit_zero (S := S1x256x1024) hz3]

/-- Any other tile: what the window held before plus this tile's one-hot product. -/
theorem acc_B (c : Dev nD) (i : grid0.Coords) (arg2 : Memref sig .tc .vmem S2048x1024 .f32) (harg2 : arg2.IsWhole) (arg3 : Memref sig .tc .vmem S2048x1 .i32) (harg3 : arg3.IsWhole) (arg4 : Memref sig .tc .vmem S256x1024 .f32) (harg4 : arg4.IsWhole) (arg5 : Memref sig .tc .vmem S256x128 .f32) (harg5 : arg5.IsWhole) (arg6 : Memref sig .tc .vmem S2048x1 .f32) (harg6 : arg6.IsWhole) (arg7 : Memref sig .tc .vmem S1x256x1024 .f32) (harg7 : arg7.IsWhole) (hc0 : ¬cond0_0 i)
    (x0 : Vec F S2048x1024 .f32) (x1 : Vec F S2048x1 .i32) (x2 : Vec F S256x1024 .f32) (x3 : Vec F S256x128 .f32) (xo5 : Vec F S1x256x1024 .f32) :
    out0_B_5 c i arg2 harg2 arg3 harg3 arg4 harg4 arg5 harg5 arg6 harg6 arg7 harg7 hc0 x0 x1 x2 x3 xo5 = k0_pay1 (k0_pay9 x1 x2 x0 x3 xo5) := by
  unfold out0_B_5
  rw [View.read_writes_eq_canon _ _ _ (cover0_B_5 c i arg2 harg2 arg3 harg3 arg4 harg4 arg5 harg5 arg6 harg6 arg7 harg7 hc0 x0 x1 x2 x3 xo5)]
  unfold kernelRun0_B
  dsimp only
  sl_unfold_words
  rw [View.canon_unit_zero hz3]
  simp only [View.readAt_eq_ld, harg2.read_unread, harg3.read_unread, harg4.read_unread, harg5.read_unread,
    harg6.read_unread, harg7.read_unread, View.ld_unit_zero (S := S2048x1) hz, View.ld_unit_zero (S := S256x1024) hz,
    View.ld_unit_zero (S := S2048x1024) hz, View.ld_unit_zero (S := S256x128) hz,
    View.ld_unit_zero (S := S1x256x1024) hz3]

end Cert.KernelIdeal.KVal

end
-- ==== Proof.KOneHot.lean ====
/-
  The body's three products with the one-hot matrix of a tile's labels, read at an index over the extended reals.
  Row r of the one-hot matrix has a one in column (lam r) and zeros elsewhere, so its product with a table is the
  table's row (lam r): the gathered centre, and the gathered row of the side table.
-/
import proofs.«409492_j58514634440869_1_alg».proof.Proof.Gen.KernelIdeal.Skeleton
import proofs.«409492_j58514634440869_1_alg».proof.Proof.Spec
import Idealize.ShloMosaic.Lib.Pipeline.Value
import Idealize.ShloMosaic.Lib.ValueLayout
import Idealize.ShloMosaic.PureOps.Ideal.Laws

noncomputable section

namespace Cert.KernelIdeal.KVal

open Idealize.ShloMosaic Idealize.ShloMosaic.ValueIdx
open Cert.KernelIdeal Cert.KernelIdeal.Gen

variable (lb : Vec Ideal S2048x1 .i32) (cb : Vec Ideal S256x1024 .f32) (fb : Vec Ideal S2048x1024 .f32)
  (ab : Vec Ideal S256x128 .f32) (lam : Fin 2048 → Fin 256)

/-- The one-hot matrix: entry (r, c) is one when row r's label is c, else zero. -/
theorem onehot_apply (hl : ∀ r : Fin 2048, lb (ix2 r 0) = BitVec.ofNat 32 (lam r).val) (r : Fin 2048) (c : Fin 256) :
    k0_pay3 (F := Ideal) lb (ix2 r c) = if lam r = c then (1 : EReal) else 0 := by
  -- the label column broadcast along the classes reads row r's label at every column
  have hb : broadcastTo S2048x256 lb broadcasts_S2048x1_S2048x256 (ix2 r c) = lb (ix2 r 0) :=
    broadcastTo_apply lb _ (ix2 r c) (ix2 r 0) (fun a => by
      match a with
      | ⟨0, _⟩ => rfl
      | ⟨1, _⟩ => rfl)
  unfold k0_pay3
  simp only [sitofp_apply, extui_apply, cmpi, hb, hl, iota, List.foldl, Nat.zero_mul, Nat.zero_add]
  show FloatOps.sitofp (F := Ideal) .f32 (BitVec.setWidth 32 (IntOp.cmpi .eq (BitVec.ofNat 32 c.val) (BitVec.ofNat 32 (lam r).val))) = _
  -- the column number c and the label (lam r) are both below 256, so their 32-bit words agree exactly when they do
  have key : IntOp.cmpi CmpIPredicate.eq (BitVec.ofNat 32 c.val) (BitVec.ofNat 32 (lam r).val)
      = if lam r = c then 1#1 else 0#1 := by
    unfold IntOp.cmpi
    by_cases h : lam r = c
    · subst h; simp
    · rw [if_neg h]
      have hne : ¬ (BitVec.ofNat 32 c.val = BitVec.ofNat 32 (lam r).val) := by
        intro e
        have e' := congrArg BitVec.toNat e
        simp only [BitVec.toNat_ofNat] at e'
        have h1 := c.isLt
        have h2 := (lam r).isLt
        rw [Nat.mod_eq_of_lt (by omega), Nat.mod_eq_of_lt (by omega)] at e'
        exact h (Fin.ext e'.symm)
      show BitVec.ofBool (BitVec.ofNat 32 c.val == BitVec.ofNat 32 (lam r).val) = 0#1
      rw [beq_eq_false_iff_ne.mpr hne]
      rfl
  rw [key]
  -- the one-bit answer widened to 32 bits is the integer 1 or 0, and so is its conversion to an extended real
  by_cases h : lam r = c
  · rw [if_pos h, if_pos h]
    show (((BitVec.setWidth 32 (1#1)).toInt : ℝ) : EReal) = 1
    have : (BitVec.setWidth 32 (1#1)).toInt = 1 := by decide
    rw [this]; simp
  · rw [if_neg h, if_neg h]
    show (((BitVec.setWidth 32 (0#1)).toInt : ℝ) : EReal) = 0
    have : (BitVec.setWidth 32 (0#1)).toInt = 0 := by decide
    rw [this]; simp

/-! ## The two block products read at an index: a sum over the 256 classes -/

/-! The operand coordinates of the product with the centres, axis by axis. -/

private theorem lhsC_0 (i : S2048x1024.Idx) (q : dot_S2048x256_S256x1024_S2048x1024_1_0_0_1_n_n.contr.Idx) :
    (dot_S2048x256_S256x1024_S2048x1024_1_0_0_1_n_n.lhsIdx i q 0).val = (i 0).val := by
  unfold DotDims.lhsIdx
  rw [dif_neg (show ¬(0 : Fin S2048x256.rank) ∈ dot_S2048x256_S256x1024_S2048x1024_1_0_0_1_n_n.lhsBatch by decide), dif_pos (show (0 : Fin S2048x256.rank) ∈ dot_S2048x256_S256x1024_S2048x1024_1_0_0_1_n_n.lhsNonContracting by decide)]
  rfl
private theorem lhsC_1 (i : S2048x1024.Idx) (q : dot_S2048x256_S256x1024_S2048x1024_1_0_0_1_n_n.contr.Idx) :
    (dot_S2048x256_S256x1024_S2048x1024_1_0_0_1_n_n.lhsIdx i q 1).val = (q ⟨0, by decide⟩).val :=
  dot_S2048x256_S256x1024_S2048x1024_1_0_0_1_n_n.lhsIdx_val_of_single rfl i q
private theorem rhsC_0 (i : S2048x1024.Idx) (q : dot_S2048x256_S256x1024_S2048x1024_1_0_0_1_n_n.contr.Idx) :
    (dot_S2048x256_S256x1024_S2048x1024_1_0_0_1_n_n.rhsIdx i q 0).val = (q ⟨0, by decide⟩).val :=
  dot_S2048x256_S256x1024_S2048x1024_1_0_0_1_n_n.rhsIdx_val_of_single rfl i q
private theorem rhsC_1 (i : S2048x1024.Idx) (q : dot_S2048x256_S256x1024_S2048x1024_1_0_0_1_n_n.contr.Idx) :
    (dot_S2048x256_S256x1024_S2048x1024_1_0_0_1_n_n.rhsIdx i q 1).val = (i 1).val := by
  unfold DotDims.rhsIdx
  rw [dif_neg (show ¬(1 : Fin S256x1024.rank) ∈ dot_S2048x256_S256x1024_S2048x1024_1_0_0_1_n_n.rhsBatch by decide), dif_pos (show (1 : Fin S256x1024.rank) ∈ dot_S2048x256_S256x1024_S2048x1024_1_0_0_1_n_n.rhsNonContracting by decide)]
  rfl

/-! The operand coordinates of the product with the side table, axis by axis. -/

private theorem lhsA_0 (i : S2048x128.Idx) (q : dot_S2048x256_S256x128_S2048x128_1_0_0_1_n_n.contr.Idx) :
    (dot_S2048x256_S256x128_S2048x128_1_0_0_1_n_n.lhsIdx i q 0).val = (i 0).val := by
  unfold DotDims.lhsIdx
  rw [dif_neg (show ¬(0 : Fin S2048x256.rank) ∈ dot_S2048x256_S256x128_S2048x128_1_0_0_1_n_n.lhsBatch by decide), dif_pos (show (0 : Fin S2048x256.rank) ∈ dot_S2048x256_S256x128_S2048x128_1_0_0_1_n_n.lhsNonContracting by decide)]
  rfl
private theorem lhsA_1 (i : S2048x128.Idx) (q : dot_S2048x256_S256x128_S2048x128_1_0_0_1_n_n.contr.Idx) :
    (dot_S2048x256_S256x128_S2048x128_1_0_0_1_n_n.lhsIdx i q 1).val = (q ⟨0, by decide⟩).val :=
  dot_S2048x256_S256x128_S2048x128_1_0_0_1_n_n.lhsIdx_val_of_single rfl i q
private theorem rhsA_0 (i : S2048x128.Idx) (q : dot_S2048x256_S256x128_S2048x128_1_0_0_1_n_n.contr.Idx) :
    (dot_S2048x256_S256x128_S2048x128_1_0_0_1_n_n.rhsIdx i q 0).val = (q ⟨0, by decide⟩).val :=
  dot_S2048x256_S256x128_S2048x128_1_0_0_1_n_n.rhsIdx_val_of_single rfl i q
private theorem rhsA_1 (i : S2048x128.Idx) (q : dot_S2048x256_S256x128_S2048x128_1_0_0_1_n_n.contr.Idx) :
    (dot_S2048x256_S256x128_S2048x128_1_0_0_1_n_n.rhsIdx i q 1).val = (i 1).val := by
  unfold DotDims.rhsIdx
  rw [dif_neg (show ¬(1 : Fin S256x128.rank) ∈ dot_S2048x256_S256x128_S2048x128_1_0_0_1_n_n.rhsBatch by decide), dif_pos (show (1 : Fin S256x128.rank) ∈ dot_S2048x256_S256x128_S2048x128_1_0_0_1_n_n.rhsNonContracting by decide)]
  rfl

/-- The product with the centres into a zero accumulator, at (r, d): the sum over the classes k of left (r, k) times right (k, d). -/
private theorem prodC_apply (A : FVec Ideal S2048x256 .bf16) (B : FVec Ideal S256x1024 .bf16) (r : Fin 2048) (d : Fin 1024) :
    FloatOps.matmul dot_S2048x256_S256x1024_S2048x1024_1_0_0_1_n_n none A B (constant S2048x1024 .f32 0x00000000#32) (ix2 r d)
      = ∑ k : Fin 256, A (ix2 r k) * B (ix2 k d) := by
  rw [Ideal.matmul_constant_zero_apply, ← Equiv.sum_comp (ValueIdx.contrEquiv1 dot_S2048x256_S256x1024_S2048x1024_1_0_0_1_n_n 256 rfl rfl).symm]
  refine Finset.sum_congr rfl fun k _ => ?_
  have hk := ValueIdx.contrEquiv1_symm_val dot_S2048x256_S256x1024_S2048x1024_1_0_0_1_n_n 256 rfl rfl k
  have el : dot_S2048x256_S256x1024_S2048x1024_1_0_0_1_n_n.lhsIdx (ix2 r d) ((ValueIdx.contrEquiv1 dot_S2048x256_S256x1024_S2048x1024_1_0_0_1_n_n 256 rfl rfl).symm k) = ix2 r k := funext fun a => Fin.ext (by
    match a with
    | ⟨0, _⟩ => exact lhsC_0 _ _
    | ⟨1, _⟩ => exact (lhsC_1 _ _).trans hk)
  have er : dot_S2048x256_S256x1024_S2048x1024_1_0_0_1_n_n.rhsIdx (ix2 r d) ((ValueIdx.contrEquiv1 dot_S2048x256_S256x1024_S2048x1024_1_0_0_1_n_n 256 rfl rfl).symm k) = ix2 k d := funext fun a => Fin.ext (by
    match a with
    | ⟨0, _⟩ => exact (rhsC_0 _ _).trans hk
    | ⟨1, _⟩ => exact rhsC_1 _ _)
  rw [el, er]

/-- The product with the side table into a zero accumulator, at (r, j): the sum over the classes k of left (r, k) times right (k, j). -/
private theorem prodA_apply (A : FVec Ideal S2048x256 .f32) (B : FVec Ideal S256x128 .f32) (r : Fin 2048) (d : Fin 128) :
    FloatOps.matmul dot_S2048x256_S256x128_S2048x128_1_0_0_1_n_n (some .fp32) A B (constant S2048x128 .f32 0x00000000#32) (ix2 r d)
      = ∑ k : Fin 256, A (ix2 r k) * B (ix2 k d) := by
  rw [Ideal.matmul_constant_zero_apply, ← Equiv.sum_comp (ValueIdx.contrEquiv1 dot_S2048x256_S256x128_S2048x128_1_0_0_1_n_n 256 rfl rfl).symm]
  refine Finset.sum_congr rfl fun k _ => ?_
  have hk := ValueIdx.contrEquiv1_symm_val dot_S2048x256_S256x128_S2048x128_1_0_0_1_n_n 256 rfl rfl k
  have el : dot_S2048x256_S256x128_S2048x128_1_0_0_1_n_n.lhsIdx (ix2 r d) ((ValueIdx.contrEquiv1 dot_S2048x256_S256x128_S2048x128_1_0_0_1_n_n 256 rfl rfl).symm k) = ix2 r k := funext fun a => Fin.ext (by
    match a with
    | ⟨0, _⟩ => exact lhsA_0 _ _
    | ⟨1, _⟩ => exact (lhsA_1 _ _).trans hk)
  have er : dot_S2048x256_S256x128_S2048x128_1_0_0_1_n_n.rhsIdx (ix2 r d) ((ValueIdx.contrEquiv1 dot_S2048x256_S256x128_S2048x128_1_0_0_1_n_n 256 rfl rfl).symm k) = ix2 k d := funext fun a => Fin.ext (by
    match a with
    | ⟨0, _⟩ => exact (rhsA_0 _ _).trans hk
    | ⟨1, _⟩ => exact rhsA_1 _ _)
  rw [el, er]

/-- The row less its gathered centre. -/
theorem pay5_apply (hl : ∀ r : Fin 2048, lb (ix2 r 0) = BitVec.ofNat 32 (lam r).val) (r : Fin 2048) (d : Fin 1024) :
    k0_pay5 (F := Ideal) lb cb fb (ix2 r d) = fb (ix2 r d) - cb (ix2 (lam r) d) := by
  unfold k0_pay5 k0_pay4
  rw [subf_apply]
  refine congrArg (fb (ix2 r d) - ·) ?_
  refine (prodC_apply _ _ r d).trans ?_
  simp only [truncf_apply, onehot_apply lb lam hl]
  exact Cert.Spec.onehot_sum (lam r) (fun k => cb (ix2 k d))

/-- The gathered row of the side table. -/
theorem pay6_apply (hl : ∀ r : Fin 2048, lb (ix2 r 0) = BitVec.ofNat 32 (lam r).val) (r : Fin 2048) (j : Fin 128) :
    k0_pay6 (F := Ideal) lb ab (ix2 r j) = ab (ix2 (lam r) j) := by
  unfold k0_pay6
  refine (prodA_apply _ _ r j).trans ?_
  simp only [shapeCast_self, onehot_apply lb lam hl]
  exact Cert.Spec.onehot_sum (lam r) (fun k => ab (ix2 k j))

end Cert.KernelIdeal.KVal

end
-- ==== Proof.KPayload.lean ====
/-
  The two stored blocks of one run of the body, read at an index over the extended reals: the loss of row r, and
  entry (c, d) of the update block as the previous entry plus the one-hot column c against the contributions.
-/
import proofs.«409492_j58514634440869_1_alg».proof.Proof.KOneHot

noncomputable section

namespace Cert.KernelIdeal.KVal

open Idealize.ShloMosaic Idealize.ShloMosaic.ValueIdx
open Cert.KernelIdeal Cert.KernelIdeal.Gen

variable (lb : Vec Ideal S2048x1 .i32) (cb : Vec Ideal S256x1024 .f32) (fb : Vec Ideal S2048x1024 .f32)
  (ab : Vec Ideal S256x128 .f32) (lam : Fin 2048 → Fin 256)

/-- A vector of 2048 entries cast to one column reads, at (r, 0), the vector at r: both sit at row-major position r. -/
private theorem col_apply {α : Type} (x : S2048.Idx → α) (h : S2048.ShapeCasts S2048x1) (r : Fin 2048) :
    shapeCast S2048x1 x h (ix2 r 0) = x (ix1 r) :=
  shapeCast_apply x h _ _ (by
    rw [Shape.rowMajor_val_one, Shape.rowMajor_val_two]
    show r.val = r.val * 1 + 0
    omega)

/-- The loss of row r: its squared distance to its centre over the denominator its label gathers. -/
theorem pay8_apply (hl : ∀ r : Fin 2048, lb (ix2 r 0) = BitVec.ofNat 32 (lam r).val) (r : Fin 2048) :
    k0_pay8 (F := Ideal) lb cb fb ab (ix2 r 0)
      = Ideal.div (∑ d : Fin 1024, (fb (ix2 r d) - cb (ix2 (lam r) d)) * (fb (ix2 r d) - cb (ix2 (lam r) d)))
          (ab (ix2 (lam r) 0)) := by
  unfold k0_pay8 k0_pay7
  refine (divf_apply _ _ _).trans ?_
  congr 1
  · refine (col_apply _ _ r).trans ?_
    refine (Ideal.multiReduction_add_single _ _ _ _ _ _).trans ?_
    refine Finset.sum_congr rfl fun (d : Fin 1024) _ => ?_
    have e : reduces_S2048x1024_S2048.lift (ix1 r) d = ix2 r d := by
      funext a
      match a with
      | ⟨0, _⟩ => rfl
      | ⟨1, _⟩ => rfl
    rw [e]
    refine (mulf_apply _ _ _).trans ?_
    rw [pay5_apply lb cb fb lam hl]
  · refine (slice2_axis1_apply 0 _ _ r 0 0 rfl).trans ?_
    exact pay6_apply lb ab lam hl r 0

/-- A column broadcast along the rows reads, at (r, d), the column at (r, 0). -/
private theorem bcol_apply {α : Type} (x : S2048x1.Idx → α) (h : S2048x1.Broadcasts S2048x1024) (r : Fin 2048) (d : Fin 1024) :
    broadcastTo S2048x1024 x h (ix2 r d) = x (ix2 r 0) :=
  broadcastTo_apply x h _ _ fun a => by
    match a with
    | ⟨0, _⟩ => rfl
    | ⟨1, _⟩ => rfl

/-- The product that contracts the rows of both operands: on its contracted axis 0 the left index is the contraction
    coordinate, -/
private theorem lhs9_0 (i : S256x1024.Idx) (q : dot_S2048x256_S2048x1024_S256x1024_0_0_1_1_n_n.contr.Idx) :
    (dot_S2048x256_S2048x1024_S256x1024_0_0_1_1_n_n.lhsIdx i q 0).val = (q ⟨0, by decide⟩).val :=
  dot_S2048x256_S2048x1024_S256x1024_0_0_1_1_n_n.lhsIdx_val_of_single rfl i q
/-- on its free axis 1 it is the output's row, -/
private theorem lhs9_1 (i : S256x1024.Idx) (q : dot_S2048x256_S2048x1024_S256x1024_0_0_1_1_n_n.contr.Idx) :
    (dot_S2048x256_S2048x1024_S256x1024_0_0_1_1_n_n.lhsIdx i q 1).val = (i 0).val := by
  unfold DotDims.lhsIdx
  rw [dif_neg (show ¬(1 : Fin S2048x256.rank) ∈ dot_S2048x256_S2048x1024_S256x1024_0_0_1_1_n_n.lhsBatch by decide), dif_pos (show (1 : Fin S2048x256.rank) ∈ dot_S2048x256_S2048x1024_S256x1024_0_0_1_1_n_n.lhsNonContracting by decide)]
  rfl
/-- the right index on its contracted axis 0 is the contraction coordinate, -/
private theorem rhs9_0 (i : S256x1024.Idx) (q : dot_S2048x256_S2048x1024_S256x1024_0_0_1_1_n_n.contr.Idx) :
    (dot_S2048x256_S2048x1024_S256x1024_0_0_1_1_n_n.rhsIdx i q 0).val = (q ⟨0, by decide⟩).val :=
  dot_S2048x256_S2048x1024_S256x1024_0_0_1_1_n_n.rhsIdx_val_of_single rfl i q
/-- and on its free axis 1 it is the output's column. -/
private theorem rhs9_1 (i : S256x1024.Idx) (q : dot_S2048x256_S2048x1024_S256x1024_0_0_1_1_n_n.contr.Idx) :
    (dot_S2048x256_S2048x1024_S256x1024_0_0_1_1_n_n.rhsIdx i q 1).val = (i 1).val := by
  unfold DotDims.rhsIdx
  rw [dif_neg (show ¬(1 : Fin S2048x1024.rank) ∈ dot_S2048x256_S2048x1024_S256x1024_0_0_1_1_n_n.rhsBatch by decide), dif_pos (show (1 : Fin S2048x1024.rank) ∈ dot_S2048x256_S2048x1024_S256x1024_0_0_1_1_n_n.rhsNonContracting by decide)]
  rfl

/-- Entry (c, d) of the update block: the previous entry plus the rows labelled c, each its weight over its
    denominator times the row less its centre. -/
theorem pay9_apply (hl : ∀ r : Fin 2048, lb (ix2 r 0) = BitVec.ofNat 32 (lam r).val)
    (prev : Vec Ideal S1x256x1024 .f32) (c : Fin 256) (d : Fin 1024) :
    k0_pay1 (k0_pay9 (F := Ideal) lb cb fb ab prev) (ix3 0 c d)
      = prev (ix3 0 c d) + ∑ r : Fin 2048, (if lam r = c then (1 : EReal) else 0)
          * (Ideal.div (ab (ix2 (lam r) 1)) (ab (ix2 (lam r) 0)) * (fb (ix2 r d) - cb (ix2 (lam r) d))) := by
  unfold k0_pay1 k0_pay9
  -- the added unit axis is read through; the sum of the previous block and the product splits
  refine (shapeCast_ab_1ab_apply _ _ 0 c d).trans ?_
  refine (addf_apply _ _ _).trans ?_
  congr 1
  · exact shapeCast_1ab_ab_apply prev _ c d
  · -- the product into the zero block is the sum over the contracted row index r
    refine (Ideal.matmul_constant_zero_apply _ none _ _ _).trans ?_
    rw [← Equiv.sum_comp (contrEquiv1 dot_S2048x256_S2048x1024_S256x1024_0_0_1_1_n_n 2048 rfl rfl).symm]
    refine Finset.sum_congr rfl fun (r : Fin 2048) _ => ?_
    have hk := contrEquiv1_symm_val dot_S2048x256_S2048x1024_S256x1024_0_0_1_1_n_n 2048 rfl rfl r
    have el : dot_S2048x256_S2048x1024_S256x1024_0_0_1_1_n_n.lhsIdx (ix2 c d) ((contrEquiv1 dot_S2048x256_S2048x1024_S256x1024_0_0_1_1_n_n 2048 rfl rfl).symm r) = ix2 r c :=
      funext fun a => Fin.ext (by
        match a with
        | ⟨0, _⟩ => exact (lhs9_0 _ _).trans hk
        | ⟨1, _⟩ => exact lhs9_1 _ _)
    have er : dot_S2048x256_S2048x1024_S256x1024_0_0_1_1_n_n.rhsIdx (ix2 c d) ((contrEquiv1 dot_S2048x256_S2048x1024_S256x1024_0_0_1_1_n_n 2048 rfl rfl).symm r) = ix2 r d :=
      funext fun a => Fin.ext (by
        match a with
        | ⟨0, _⟩ => exact (rhs9_0 _ _).trans hk
        | ⟨1, _⟩ => exact rhs9_1 _ _)
    rw [el, er]
    congr 1
    · -- the left factor is the one-hot entry (r, c)
      exact (truncf_apply (φ := .f32) (ψ := .bf16) (k0_pay3 lb) bitsLt_bf16_f32 (ix2 r c)).trans (onehot_apply lb lam hl r c)
    · -- the right factor is row r's weight over its denominator times the row less its centre
      refine (truncf_apply (φ := .f32) (ψ := .bf16) _ bitsLt_bf16_f32 (ix2 r d)).trans ?_
      refine (mulf_apply _ _ _).trans ?_
      congr 1
      · refine (bcol_apply _ _ r d).trans ?_
        refine (divf_apply _ _ _).trans ?_
        congr 1
        · exact (slice2_axis1_apply 1 _ _ r 0 1 rfl).trans (pay6_apply lb ab lam hl r 1)
        · unfold k0_pay7
          exact (slice2_axis1_apply 0 _ _ r 0 0 rfl).trans (pay6_apply lb ab lam hl r 0)
      · exact pay5_apply lb cb fb lam hl r d

/-- The zero block. -/
theorem pay2_apply (c : Fin 256) (d : Fin 1024) : (k0_pay2 (F := Ideal)) (ix3 0 c d) = 0 := by
  unfold k0_pay2
  refine (shapeCast_ab_1ab_apply _ _ 0 c d).trans ?_
  exact Ideal.ofBits_zero_f32

end Cert.KernelIdeal.KVal

end
-- ==== Proof.KHost.lean ====
/-
  The host lines before the region build the [256, 128] side table: zeros, then column 0 set to the class
  denominators (the sum over all centres of the clamped squared distances, plus one), then column 1 set to the
  class weights. Only those two columns are ever read.
-/
import proofs.«409492_j58514634440869_1_alg».proof.Proof.KDefs
import Idealize.ShloMosaic.Lib.StableHlo.Run
import Idealize.ShloMosaic.Lib.Pipeline.Value
import Idealize.ShloMosaic.Lib.ValueLayout
import Idealize.ShloMosaic.PureOps.Ideal.Laws

noncomputable section

namespace Cert.KernelIdeal.KVal

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-- The squared norm of every centre: the row sums of the elementwise square, from zero. -/
private def sqv (C : FVec Ideal S256x1024 .f32) : FVec Ideal S256 .f32 :=
  Host.reduceAdd (F := Ideal) (mulf (F := Ideal) C C) (constant (F := Ideal) S_ .f32 0x00000000#32) reducesTo_S256x1024_S256_d1 h_S_
/-- The table of sums of two squared norms: a column copy plus a row copy. -/
private def sumv (C : FVec Ideal S256x1024 .f32) : FVec Ideal S256x256 .f32 :=
  addf (F := Ideal) (broadcastInDim S256x256 ![0, 1] bcast_S256x1_S256x256_0_1 (broadcastInDim S256x1 ![0] bcast_S256_S256x1_0 (sqv C)))
    (broadcastInDim S256x256 ![0, 1] bcast_S1x256_S256x256_0_1 (broadcastInDim S1x256 ![1] bcast_S256_S1x256_1 (sqv C)))
/-- The table of inner products: the centres times their transpose. -/
private def gramv (C : FVec Ideal S256x1024 .f32) : FVec Ideal S256x256 .f32 :=
  Host.dotGeneral (F := Ideal) dot_S256x1024_S1024x256_S256x256_1_0_0_1_n_n none C
    (transpose S1024x256 [1, 0] C transposes_S256x1024_S1024x256_1_0)
/-- The clamped squared distances. -/
private def pairv (C : FVec Ideal S256x1024 .f32) : FVec Ideal S256x256 .f32 :=
  maximumf (F := Ideal)
    (subf (F := Ideal) (sumv C)
      (mulf (F := Ideal) (broadcastInDim S256x256 ![] bcast_S_S256x256 (constant (F := Ideal) S_ .f32 0x40000000#32)) (gramv C)))
    (broadcastInDim S256x256 ![] bcast_S_S256x256 (constant (F := Ideal) S_ .f32 0x00000000#32))
/-- Their row sums, from zero. -/
private def pcdv (C : FVec Ideal S256x1024 .f32) : FVec Ideal S256 .f32 :=
  Host.reduceAdd (F := Ideal) (pairv C) (constant (F := Ideal) S_ .f32 0x00000000#32) reducesTo_S256x256_S256_d1 h_S_
/-- The denominators: the row sums plus one. -/
private def denv (C : FVec Ideal S256x1024 .f32) : FVec Ideal S256 .f32 :=
  addf (F := Ideal) (pcdv C) (broadcastInDim S256 ![] bcast_S_S256 (constant (F := Ideal) S_ .f32 0x3F800000#32))
/-- The side table after the first write: zeros, column 0 set to the denominators. -/
private def aux0 (C : FVec Ideal S256x1024 .f32) : FVec Ideal S256x128 .f32 :=
  Host.scatter scatter_S256x128_S1_S256_0_1_1_0 (fun _ b => b)
    (broadcastInDim S256x128 ![] bcast_S_S256x128 (constant (F := Ideal) S_ .f32 0x00000000#32))
    (broadcastInDim S1 ![] bcast_S_S1 (constantI S_ 32 0#32)) (denv C)
/-- The side table after the second write: column 1 set to the class weights. -/
private def aux1 (C : FVec Ideal S256x1024 .f32) (W : FVec Ideal S256 .f32) : FVec Ideal S256x128 .f32 :=
  Host.scatter scatter_S256x128_S1_S256_0_1_1_0 (fun _ b => b) (aux0 C)
    (broadcastInDim S1 ![] bcast_S_S1 (constantI S_ 32 1#32)) W

/-- Equality of two indices of the side table, by coordinates. -/
private theorem ix2_eq_iff (k k' : Fin 256) (j j' : Fin 128) :
    ((ix2 k j : S256x128.Idx) = ix2 k' j') ↔ k = k' ∧ j = j' := by
  constructor
  · intro h
    exact ⟨congrFun h 0, congrFun h 1⟩
  · rintro ⟨rfl, rfl⟩; rfl

/-- Where an update lands: update row n goes to row n of the column the start word names. -/
private theorem scat_resultIdx (j : S256.Idx) (idx : IVec S1 32) (j₀ : Fin 128)
    (hidx : ∀ q, (idx q).toInt = (j₀.val : Int)) :
    scatter_S256x128_S1_S256_0_1_1_0.resultIdx? j idx = some (ix2 (j 0) j₀ : S256x128.Idx) := by
  have hs0 : scatter_S256x128_S1_S256_0_1_1_0.start j idx 0 = 0 := by
    unfold ScatterDims.start
    rw [dif_neg (show ¬(0 : Fin S256x128.rank) ∈ scatter_S256x128_S1_S256_0_1_1_0.scatterDimsToOperandDims by decide)]
  have hs1 : scatter_S256x128_S1_S256_0_1_1_0.start j idx 1 = (j₀.val : Int) := by
    unfold ScatterDims.start
    rw [dif_pos (show (1 : Fin S256x128.rank) ∈ scatter_S256x128_S1_S256_0_1_1_0.scatterDimsToOperandDims by decide)]
    exact hidx _
  have hw0 : scatter_S256x128_S1_S256_0_1_1_0.window j 0 = (j 0).val := by
    unfold ScatterDims.window
    rw [dif_pos (show (0 : Fin S256x128.rank) ∈ scatter_S256x128_S1_S256_0_1_1_0.sKept by decide)]
    rfl
  have hw1 : scatter_S256x128_S1_S256_0_1_1_0.window j 1 = 0 := by
    unfold ScatterDims.window
    rw [dif_neg (show ¬(1 : Fin S256x128.rank) ∈ scatter_S256x128_S1_S256_0_1_1_0.sKept by decide)]
  have hj0 : (j 0).val < 256 := (j 0).isLt
  have hj1 : j₀.val < 128 := j₀.isLt
  unfold ScatterDims.resultIdx?
  rw [dif_pos (fun a => by
    match a with
    | ⟨0, _⟩ =>
      show 0 ≤ scatter_S256x128_S1_S256_0_1_1_0.start j idx 0 + (scatter_S256x128_S1_S256_0_1_1_0.window j 0 : Int) ∧
        scatter_S256x128_S1_S256_0_1_1_0.start j idx 0 + (scatter_S256x128_S1_S256_0_1_1_0.window j 0 : Int) < (256 : Nat)
      rw [hs0, hw0]; omega
    | ⟨1, _⟩ =>
      show 0 ≤ scatter_S256x128_S1_S256_0_1_1_0.start j idx 1 + (scatter_S256x128_S1_S256_0_1_1_0.window j 1 : Int) ∧
        scatter_S256x128_S1_S256_0_1_1_0.start j idx 1 + (scatter_S256x128_S1_S256_0_1_1_0.window j 1 : Int) < (128 : Nat)
      rw [hs1, hw1]; omega)]
  refine congrArg some (funext fun a => Fin.ext ?_)
  match a with
  | ⟨0, _⟩ =>
    show (scatter_S256x128_S1_S256_0_1_1_0.start j idx 0 + (scatter_S256x128_S1_S256_0_1_1_0.window j 0 : Int)).toNat = (j 0).val
    rw [hs0, hw0]; omega
  | ⟨1, _⟩ =>
    show (scatter_S256x128_S1_S256_0_1_1_0.start j idx 1 + (scatter_S256x128_S1_S256_0_1_1_0.window j 1 : Int)).toNat = j₀.val
    rw [hs1, hw1]; omega

/-- One write: the entry in the named column of the update's row is replaced, every other entry kept. -/
private theorem scat_step (r : S256x128.Idx → EReal) (upd : S256.Idx → EReal) (j₀ : Fin 128) (n : S256.Idx)
    (k : Fin 256) (j : Fin 128) :
    (if (ix2 k j : S256x128.Idx) = (ix2 (n 0) j₀ : S256x128.Idx) then upd n else r (ix2 k j)) =
      if j = j₀ ∧ (n 0).val = k.val then upd (ix1 k) else r (ix2 k j) := by
  by_cases h : j = j₀ ∧ (n 0).val = k.val
  · have hk : n 0 = k := Fin.ext h.2
    have hn : n = ix1 k := by
      funext d
      match d with
      | ⟨0, _⟩ => exact hk
    have hi : (ix2 k j : S256x128.Idx) = (ix2 (n 0) j₀ : S256x128.Idx) := (ix2_eq_iff _ _ _ _).2 ⟨hk.symm, h.1⟩
    rw [if_pos h, if_pos hi, hn]
  · have hi : ¬ (ix2 k j : S256x128.Idx) = (ix2 (n 0) j₀ : S256x128.Idx) := fun e =>
      h ⟨((ix2_eq_iff _ _ _ _).1 e).2, congrArg Fin.val ((ix2_eq_iff _ _ _ _).1 e).1.symm⟩
    rw [if_neg h, if_neg hi]

/-- The writes of a list of update rows, one after another: an entry of the named column whose row is in the list
    holds the update there, every other entry is as before. -/
private theorem scat_fold (upd : S256.Idx → EReal) (j₀ : Fin 128) (L : List (Fin S256.numel)) :
    ∀ (x : S256x128.Idx → EReal) (k : Fin 256) (j : Fin 128),
    L.foldl (fun r n => fun i' : S256x128.Idx =>
        if i' = (ix2 ((S256.rowMajor.symm n) 0) j₀ : S256x128.Idx) then upd (S256.rowMajor.symm n) else r i') x (ix2 k j) =
      if j = j₀ ∧ ∃ n ∈ L, ((S256.rowMajor.symm n) 0).val = k.val then upd (ix1 k) else x (ix2 k j) := by
  induction L with
  | nil => intro x k j; simp
  | cons n L ih =>
    intro x k j
    have hP : (∃ n' ∈ n :: L, ((S256.rowMajor.symm n') 0).val = k.val) ↔
        (((S256.rowMajor.symm n) 0).val = k.val ∨ ∃ n' ∈ L, ((S256.rowMajor.symm n') 0).val = k.val) := by
      constructor
      · rintro ⟨n', hn', e⟩
        rcases List.mem_cons.1 hn' with rfl | h'
        · exact Or.inl e
        · exact Or.inr ⟨n', h', e⟩
      · rintro (e | ⟨n', h', e⟩)
        · exact ⟨n, List.mem_cons.2 (Or.inl rfl), e⟩
        · exact ⟨n', List.mem_cons.2 (Or.inr h'), e⟩
    rw [List.foldl_cons, ih, scat_step x upd j₀ (S256.rowMajor.symm n) k j]
    by_cases hA : j = j₀ <;> by_cases hB : ((S256.rowMajor.symm n) 0).val = k.val <;>
      by_cases hC : ∃ n' ∈ L, ((S256.rowMajor.symm n') 0).val = k.val <;> simp [hP, hA, hB, hC]

/-- The whole write at a start word naming column j₀: column j₀ becomes the update, every other column is kept. -/
private theorem scat_apply (x : S256x128.Idx → EReal) (idx : IVec S1 32) (upd : S256.Idx → EReal) (j₀ : Fin 128)
    (hidx : ∀ q, (idx q).toInt = (j₀.val : Int)) (k : Fin 256) (j : Fin 128) :
    Host.scatter scatter_S256x128_S1_S256_0_1_1_0 (fun _ b => b) x idx upd (ix2 k j) =
      if j = j₀ then upd (ix1 k) else x (ix2 k j) := by
  unfold Host.scatter
  simp only [scat_resultIdx _ idx j₀ hidx]
  rw [scat_fold upd j₀]
  have hex : ∃ n ∈ List.finRange S256.numel, ((S256.rowMajor.symm n) 0).val = k.val :=
    ⟨S256.rowMajor (ix1 k), List.mem_finRange _, by rw [Equiv.symm_apply_apply]⟩
  by_cases hj : j = j₀
  · have h2 : j = j₀ ∧ ∃ n ∈ List.finRange S256.numel, ((S256.rowMajor.symm n) 0).val = k.val := ⟨hj, hex⟩
    rw [if_pos hj, if_pos h2]
  · have h2 : ¬ (j = j₀ ∧ ∃ n ∈ List.finRange S256.numel, ((S256.rowMajor.symm n) 0).val = k.val) := fun h => hj h.1
    rw [if_neg hj, if_neg h2]

/-- A vector copied down the columns and then across: entry (a, b) is the vector's entry a. -/
private theorem col_apply (v : FVec Ideal S256 .f32) (a b : Fin 256) :
    broadcastInDim S256x256 ![0, 1] bcast_S256x1_S256x256_0_1 (broadcastInDim S256x1 ![0] bcast_S256_S256x1_0 v) (ix2 a b) =
      v (ix1 a) := by
  rw [broadcastInDim_apply _ bcast_S256x1_S256x256_0_1 _ (ix2 a b) (ix2 a 0) (fun x => match x with
    | ⟨0, _⟩ => by show a.val = if (256 : Nat) = 1 then 0 else a.val; rw [if_neg (by decide)]
    | ⟨1, _⟩ => by show 0 = if (1 : Nat) = 1 then 0 else b.val; rw [if_pos rfl])]
  exact broadcastInDim_apply _ bcast_S256_S256x1_0 v (ix2 a 0) (ix1 a) (fun x => match x with
    | ⟨0, _⟩ => by show a.val = if (256 : Nat) = 1 then 0 else a.val; rw [if_neg (by decide)])

/-- A vector copied along a row and then down: entry (a, b) is the vector's entry b. -/
private theorem row_apply (v : FVec Ideal S256 .f32) (a b : Fin 256) :
    broadcastInDim S256x256 ![0, 1] bcast_S1x256_S256x256_0_1 (broadcastInDim S1x256 ![1] bcast_S256_S1x256_1 v) (ix2 a b) =
      v (ix1 b) := by
  rw [broadcastInDim_apply _ bcast_S1x256_S256x256_0_1 _ (ix2 a b) (ix2 0 b) (fun x => match x with
    | ⟨0, _⟩ => by show 0 = if (1 : Nat) = 1 then 0 else a.val; rw [if_pos rfl]
    | ⟨1, _⟩ => by show b.val = if (256 : Nat) = 1 then 0 else b.val; rw [if_neg (by decide)])]
  exact broadcastInDim_apply _ bcast_S256_S1x256_1 v (ix2 0 b) (ix1 b) (fun x => match x with
    | ⟨0, _⟩ => by show b.val = if (256 : Nat) = 1 then 0 else b.val; rw [if_neg (by decide)])

/-- The row sums of squares are the squared norms. -/
private theorem sqv_apply (C : FVec Ideal S256x1024 .f32) (a : Fin 256) : sqv C (ix1 a) = Cert.Spec.sq C a := by
  unfold sqv Cert.Spec.sq
  simp only [Host.reduceAdd, Ideal.hostReduceAdd_def]
  rw [Ideal.hostReduceAdd_single reducesTo_S256x1024_S256_d1 (by decide)]
  rw [show (constant (F := Ideal) S_ .f32 0x00000000#32) (Shape.Idx.first h_S_) = 0 from Ideal.ofBits_zero_f32, zero_add]
  refine Finset.sum_congr rfl fun q _ => ?_
  have e : (Shape.Reduces.lift (s := S256x1024) (t := S256) (a := 1) (by decide) (ix1 a) q) = (ix2 a q : S256x1024.Idx) :=
    funext fun x => Fin.ext (by match x with | ⟨0, _⟩ => rfl | ⟨1, _⟩ => rfl)
  show C _ * C _ = _
  rw [e]

/-- The contraction axes of the product of the centres with their transpose, one coordinate at a time. -/
private theorem lhs_gram_0 (i : S256x256.Idx) (q : dot_S256x1024_S1024x256_S256x256_1_0_0_1_n_n.contr.Idx) :
    (dot_S256x1024_S1024x256_S256x256_1_0_0_1_n_n.lhsIdx i q 0).val = (i 0).val := by
  unfold DotDims.lhsIdx
  rw [dif_neg (show ¬(0 : Fin S256x1024.rank) ∈ dot_S256x1024_S1024x256_S256x256_1_0_0_1_n_n.lhsBatch by decide), dif_pos (show (0 : Fin S256x1024.rank) ∈ dot_S256x1024_S1024x256_S256x256_1_0_0_1_n_n.lhsNonContracting by decide)]
  rfl
private theorem lhs_gram_1 (i : S256x256.Idx) (q : dot_S256x1024_S1024x256_S256x256_1_0_0_1_n_n.contr.Idx) :
    (dot_S256x1024_S1024x256_S256x256_1_0_0_1_n_n.lhsIdx i q 1).val = (q ⟨0, by decide⟩).val :=
  dot_S256x1024_S1024x256_S256x256_1_0_0_1_n_n.lhsIdx_val_of_single rfl i q
private theorem rhs_gram_0 (i : S256x256.Idx) (q : dot_S256x1024_S1024x256_S256x256_1_0_0_1_n_n.contr.Idx) :
    (dot_S256x1024_S1024x256_S256x256_1_0_0_1_n_n.rhsIdx i q 0).val = (q ⟨0, by decide⟩).val :=
  dot_S256x1024_S1024x256_S256x256_1_0_0_1_n_n.rhsIdx_val_of_single rfl i q
private theorem rhs_gram_1 (i : S256x256.Idx) (q : dot_S256x1024_S1024x256_S256x256_1_0_0_1_n_n.contr.Idx) :
    (dot_S256x1024_S1024x256_S256x256_1_0_0_1_n_n.rhsIdx i q 1).val = (i 1).val := by
  unfold DotDims.rhsIdx
  rw [dif_neg (show ¬(1 : Fin S1024x256.rank) ∈ dot_S256x1024_S1024x256_S256x256_1_0_0_1_n_n.rhsBatch by decide), dif_pos (show (1 : Fin S1024x256.rank) ∈ dot_S256x1024_S1024x256_S256x256_1_0_0_1_n_n.rhsNonContracting by decide)]
  rfl

/-- The product of the centres with their transpose holds the inner products. -/
private theorem gramv_apply (C : FVec Ideal S256x1024 .f32) (a b : Fin 256) : gramv C (ix2 a b) = Cert.Spec.gram C a b := by
  unfold gramv Cert.Spec.gram
  simp only [Host.dotGeneral]
  rw [Ideal.dotGeneral_apply, ← Equiv.sum_comp (ValueIdx.contrEquiv1 dot_S256x1024_S1024x256_S256x256_1_0_0_1_n_n 1024 rfl rfl).symm]
  refine Finset.sum_congr rfl fun q _ => ?_
  have hq := ValueIdx.contrEquiv1_symm_val dot_S256x1024_S1024x256_S256x256_1_0_0_1_n_n 1024 rfl rfl q
  have el : dot_S256x1024_S1024x256_S256x256_1_0_0_1_n_n.lhsIdx (ix2 a b) ((ValueIdx.contrEquiv1 dot_S256x1024_S1024x256_S256x256_1_0_0_1_n_n 1024 rfl rfl).symm q) = (ix2 a q : S256x1024.Idx) := funext fun x => Fin.ext (by
    match x with
    | ⟨0, _⟩ => exact lhs_gram_0 _ _
    | ⟨1, _⟩ => exact (lhs_gram_1 _ _).trans hq)
  have er : dot_S256x1024_S1024x256_S256x256_1_0_0_1_n_n.rhsIdx (ix2 a b) ((ValueIdx.contrEquiv1 dot_S256x1024_S1024x256_S256x256_1_0_0_1_n_n 1024 rfl rfl).symm q) = (ix2 q b : S1024x256.Idx) := funext fun x => Fin.ext (by
    match x with
    | ⟨0, _⟩ => exact (rhs_gram_0 _ _).trans hq
    | ⟨1, _⟩ => exact rhs_gram_1 _ _)
  rw [el, er]
  rw [transpose_apply [1, 0] C transposes_S256x1024_S1024x256_1_0 (ix2 q b) (ix2 b q) (fun x => match x with
    | ⟨0, _⟩ => rfl
    | ⟨1, _⟩ => rfl)]

/-- The clamped table holds the clamped squared distances. -/
private theorem pairv_apply (C : FVec Ideal S256x1024 .f32) (a b : Fin 256) : pairv C (ix2 a b) = Cert.Spec.pair C a b := by
  unfold pairv sumv Cert.Spec.pair
  show max ((broadcastInDim S256x256 ![0, 1] bcast_S256x1_S256x256_0_1 (broadcastInDim S256x1 ![0] bcast_S256_S256x1_0 (sqv C)) (ix2 a b) +
      broadcastInDim S256x256 ![0, 1] bcast_S1x256_S256x256_0_1 (broadcastInDim S1x256 ![1] bcast_S256_S1x256_1 (sqv C)) (ix2 a b)) -
      Ideal.ofBits .f32 0x40000000#32 * gramv C (ix2 a b)) (Ideal.ofBits .f32 0x00000000#32) = _
  rw [col_apply, row_apply, sqv_apply, sqv_apply, gramv_apply, Ideal.ofBits_zero_f32]

/-- The row sums of the clamped table. -/
private theorem pcdv_apply (C : FVec Ideal S256x1024 .f32) (a : Fin 256) : pcdv C (ix1 a) = Cert.Spec.pcd C a := by
  unfold pcdv Cert.Spec.pcd
  simp only [Host.reduceAdd, Ideal.hostReduceAdd_def]
  rw [Ideal.hostReduceAdd_single reducesTo_S256x256_S256_d1 (by decide)]
  rw [show (constant (F := Ideal) S_ .f32 0x00000000#32) (Shape.Idx.first h_S_) = 0 from Ideal.ofBits_zero_f32, zero_add]
  refine Finset.sum_congr rfl fun q _ => ?_
  have e : (Shape.Reduces.lift (s := S256x256) (t := S256) (a := 1) (by decide) (ix1 a) q) = (ix2 a q : S256x256.Idx) :=
    funext fun x => Fin.ext (by match x with | ⟨0, _⟩ => rfl | ⟨1, _⟩ => rfl)
  rw [e]
  exact pairv_apply C a q

/-- The denominators. -/
private theorem denv_apply (C : FVec Ideal S256x1024 .f32) (a : Fin 256) : denv C (ix1 a) = Cert.Spec.den C a := by
  unfold denv Cert.Spec.den
  show pcdv C (ix1 a) + Ideal.ofBits .f32 0x3F800000#32 = _
  rw [pcdv_apply]

set_option maxHeartbeats 4000000 in
/-- The side table the region finds is the zero table with its first two columns written. -/
private theorem aux_eq (c : Dev nD) : (auxArr m c : S256x128.Idx → EReal) = aux1 (Ca m c) (Wa m c) := by
  show StableHlo.after hostOps0 (fun b => m (c, b)) (Proc.devRef .tc main_v21) = _
  unfold aux1 aux0 denv pcdv pairv gramv sumv sqv
  after_results_simp

/-- Column 0 of the side table holds the denominators. -/
theorem aux_col0 (c : Dev nD) (k : Fin 256) : auxArr m c (ix2 k 0) = Cert.Spec.den (Ca m c) k := by
  rw [aux_eq]
  unfold aux1
  rw [scat_apply _ _ _ 1 (fun _ => rfl), if_neg (by decide)]
  unfold aux0
  rw [scat_apply _ _ _ 0 (fun _ => rfl), if_pos rfl]
  exact denv_apply _ k

/-- Column 1 holds the class weights. -/
theorem aux_col1 (c : Dev nD) (k : Fin 256) : auxArr m c (ix2 k 1) = Wa m c (ix1 k) := by
  rw [aux_eq]
  unfold aux1
  rw [scat_apply _ _ _ 1 (fun _ => rfl), if_pos rfl]

end Cert.KernelIdeal.KVal

end
-- ==== Proof.KBlocks.lean ====
/-
  The input windows' blocks read off the arrays: point t (tile t) sees rows 2048·t … 2048·t + 2047 of the features and
  of the label column, and the whole of the centres and of the side table at every point.
-/
import proofs.«409492_j58514634440869_1_alg».proof.Proof.KDefs
import Idealize.ShloMosaic.Lib.Pipeline.Value

noncomputable section

namespace Cert.KernelIdeal.KVal

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-- The four input windows' block indices at the linear point t: the two row-tiled windows sit at block (t, 0), the two
    whole-array windows at block (0, 0). -/
private theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- Row r, column d of tile t's feature block is row 2048·t + r of the features. -/
theorem fblk_apply (c : Dev nD) (t : Fin cfg0.N) (r : Fin 2048) (d : Fin 1024) :
    fblk m c t (ix2 r d) = Xa m c (ix2 (Cert.Spec.rowN t.val r) d) := by
  show iblk m c 0 t (ix2 r d) = _
  unfold iblk
  show V m c main_arg0 (((cfg0.win 0).blk t).view.emb (ix2 r d)) = _
  rw [V_main_arg0]
  obtain ⟨e0, e1, -⟩ := idx_facts t
  have ht : t.val < 32 := lt_of_lt_of_eq t.isLt N_0
  refine congrArg (m ((c : Thread nD τ).loc main_arg0)) ?_
  funext a; apply Fin.ext
  match a with
  | ⟨0, _⟩ =>
    show win0_0.index t (0 : Fin 2) * 2048 + 1 * r.val = (t.val % 32) * 2048 + r.val
    rw [e0, Nat.mod_eq_of_lt ht]; omega
  | ⟨1, _⟩ =>
    show win0_0.index t (1 : Fin 2) * 1024 + 1 * d.val = d.val
    rw [e1]; omega

/-- Row r of tile t's label block is the label of row 2048·t + r. -/
theorem lblk_apply (c : Dev nD) (t : Fin cfg0.N) (r : Fin 2048) :
    lblk m c t (ix2 r 0) = La m c (ix2 (Cert.Spec.rowN t.val r) 0) := by
  show iblk m c 1 t (ix2 r 0) = _
  unfold iblk
  show V m c main_arg1 (((cfg0.win 1).blk t).view.emb (ix2 r 0)) = _
  rw [V_main_arg1]
  obtain ⟨-, -, e0, e1, -⟩ := idx_facts t
  have ht : t.val < 32 := lt_of_lt_of_eq t.isLt N_0
  refine congrArg (m ((c : Thread nD τ).loc main_arg1)) ?_
  funext a; apply Fin.ext
  match a with
  | ⟨0, _⟩ =>
    show win0_1.index t (0 : Fin 2) * 2048 + 1 * r.val = (t.val % 32) * 2048 + r.val
    rw [e0, Nat.mod_eq_of_lt ht]; omega
  | ⟨1, _⟩ =>
    show win0_1.index t (1 : Fin 2) * 1 + 1 * 0 = 0
    rw [e1]

/-- Every point sees all the centres. -/
theorem cblk_eq (c : Dev nD) (t : Fin cfg0.N) : cblk m c t = Ca m c := by
  funext y
  show iblk m c 2 t y = _
  unfold iblk
  show V m c main_arg2 (((cfg0.win 2).blk t).view.emb y) = _
  rw [V_main_arg2]
  obtain ⟨-, -, -, -, e0, e1, -⟩ := idx_facts t
  refine congrArg (m ((c : Thread nD τ).loc main_arg2)) ?_
  funext a; apply Fin.ext
  match a with
  | ⟨0, _⟩ =>
    show win0_2.index t (0 : Fin 2) * 256 + 1 * (y 0).val = (y 0).val
    rw [e0]; omega
  | ⟨1, _⟩ =>
    show win0_2.index t (1 : Fin 2) * 1024 + 1 * (y 1).val = (y 1).val
    rw [e1]; omega

/-- Every point sees the whole side table. -/
theorem ablk_eq (c : Dev nD) (t : Fin cfg0.N) : ablk m c t = auxArr m c := by
  funext y
  show iblk m c 3 t y = _
  unfold iblk
  show V m c main_v21 (((cfg0.win 3).blk t).view.emb y) = V m c main_v21 y
  obtain ⟨-, -, -, -, -, -, e0, e1⟩ := idx_facts t
  refine congrArg (V m c main_v21) ?_
  funext a; apply Fin.ext
  match a with
  | ⟨0, _⟩ =>
    show win0_3.index t (0 : Fin 2) * 256 + 1 * (y 0).val = (y 0).val
    rw [e0]; omega
  | ⟨1, _⟩ =>
    show win0_3.index t (1 : Fin 2) * 128 + 1 * (y 1).val = (y 1).val
    rw [e1]; omega

end Cert.KernelIdeal.KVal

end
-- ==== Proof.KPoints.lean ====
/-
  What the two output windows hold after each grid point, by induction on the point: the loss block of tile t holds the
  losses of its 2048 rows; the update block holds the running sum of the one-hot products of the tiles of the current
  half up to t (reset at the first tile of a half, carried otherwise).
-/
import proofs.«409492_j58514634440869_1_alg».proof.Proof.KDefs
import proofs.«409492_j58514634440869_1_alg».proof.Proof.KPieces
import proofs.«409492_j58514634440869_1_alg».proof.Proof.KPayload
import proofs.«409492_j58514634440869_1_alg».proof.Proof.KHost
import proofs.«409492_j58514634440869_1_alg».proof.Proof.KBlocks

noncomputable section

namespace Cert.KernelIdeal.KVal

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-- The losses of tile t's rows, as a [2048, 1] block. -/
def lossBlk (c : Dev nD) (lab : Fin 65536 → Fin 256) (n : ℕ) : Vec Ideal S2048x1 .f32 :=
  fun y => Cert.Spec.lossAt (Xa m c) (Ca m c) lab (Cert.Spec.rowN n (y 0))

/-- The running sum after tile n, as a [1, 256, 1024] block. -/
def accBlk (c : Dev nD) (lab : Fin 65536 → Fin 256) (n : ℕ) : Vec Ideal S1x256x1024 .f32 :=
  fun y => Cert.Spec.accN (Xa m c) (Ca m c) (Wa m c) lab n (y 1) (y 2)

/-- An index of a [2048, 1] block is its row and column 0. -/
private theorem idx_col (y : S2048x1.Idx) : ∃ r : Fin 2048, y = ix2 r 0 :=
  ⟨y 0, funext fun a => match a with
    | ⟨0, _⟩ => rfl
    | ⟨1, _⟩ => Subsingleton.elim (α := Fin 1) _ _⟩

/-- An index of a [1, 256, 1024] block is plane 0, its row and its column. -/
private theorem idx_plane (y : S1x256x1024.Idx) : ∃ (k : Fin 256) (d : Fin 1024), y = ix3 0 k d :=
  ⟨y 1, y 2, funext fun a => match a with
    | ⟨0, _⟩ => Subsingleton.elim (α := Fin 1) _ _
    | ⟨1, _⟩ => rfl
    | ⟨2, _⟩ => rfl⟩

/-- The label block of tile t holds the labels of the tile's rows. -/
private theorem lblk_lab (c : Dev nD) (lab : Fin 65536 → Fin 256) (hlab : Labelled m c lab) (t : Fin cfg0.N)
    (r : Fin 2048) : lblk m c t (ix2 r 0) = BitVec.ofNat 32 (lab (Cert.Spec.rowN t.val r)).val :=
  (lblk_apply m c t r).trans (hlab _)

/-- The quotient payload at tile t's blocks is the tile's loss block: the blocks are the arrays' rows, the gathered
    denominator is column 0 of the side table. -/
private theorem pay8_blk (c : Dev nD) (lab : Fin 65536 → Fin 256) (hlab : Labelled m c lab) (t : Fin cfg0.N) :
    k0_pay8 (F := Ideal) (lblk m c t) (cblk m c t) (fblk m c t) (ablk m c t) = lossBlk m c lab t.val := by
  funext y
  obtain ⟨r, rfl⟩ := idx_col y
  refine (pay8_apply (lblk m c t) (cblk m c t) (fblk m c t) (ablk m c t)
    (fun r => lab (Cert.Spec.rowN t.val r)) (lblk_lab m c lab hlab t) r).trans ?_
  simp only [fblk_apply, cblk_eq, ablk_eq]
  rw [aux_col0 m c (lab (Cert.Spec.rowN t.val r))]
  rfl

/-- The update payload at tile t's blocks over a previous block: the previous entry plus the tile's one-hot product;
    the coefficient is column 1 over column 0 of the side table. -/
private theorem pay9_blk (c : Dev nD) (lab : Fin 65536 → Fin 256) (hlab : Labelled m c lab) (t : Fin cfg0.N)
    (prev : Vec Ideal S1x256x1024 .f32) (k : Fin 256) (d : Fin 1024) :
    k0_pay1 (k0_pay9 (F := Ideal) (lblk m c t) (cblk m c t) (fblk m c t) (ablk m c t) prev) (ix3 0 k d)
      = prev (ix3 0 k d) + Cert.Spec.tile (Xa m c) (Ca m c) (Wa m c) lab t.val k d := by
  refine (pay9_apply (lblk m c t) (cblk m c t) (fblk m c t) (ablk m c t)
    (fun r => lab (Cert.Spec.rowN t.val r)) (lblk_lab m c lab hlab t) prev k d).trans ?_
  simp only [fblk_apply, cblk_eq, ablk_eq]
  refine congrArg (prev (ix3 0 k d) + ·) ?_
  unfold Cert.Spec.tile Cert.Spec.contrib Cert.Spec.coef Cert.Spec.diff
  refine Finset.sum_congr rfl fun x _ => ?_
  rw [aux_col0 m c (lab (Cert.Spec.rowN t.val x)), aux_col1 m c (lab (Cert.Spec.rowN t.val x))]

/-- A first tile of a half: the loss block, and the zero block plus the tile's product, which is the reset sum. -/
private theorem step_A (c : Dev nD) (lab : Fin 65536 → Fin 256) (hlab : Labelled m c lab) (t : Fin cfg0.N)
    (h0 : t.val % 16 = 0) : outsAt0 m c t.val t.isLt = (lossBlk m c lab t.val, accBlk m c lab t.val) := by
  refine (outsAt0_A m c t h0).trans (congrArg₂ Prod.mk ?_ ?_)
  · exact (loss_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (fblk m c t) (lblk m c t) (cblk m c t) (ablk m c t)).trans (pay8_blk m c lab hlab t)
  · refine (acc_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (fblk m c t) (lblk m c t) (cblk m c t) (ablk m c t)).trans ?_
    funext y
    obtain ⟨k, d, rfl⟩ := idx_plane y
    refine (pay9_blk m c lab hlab t (k0_pay2 (F := Ideal)) k d).trans ?_
    rw [pay2_apply, zero_add]
    exact (Cert.Spec.accN_reset (Xa m c) (Ca m c) (Wa m c) lab t.val h0 k d).symm

/-- Any other tile: the loss block, and the previous running sum plus the tile's product, which is the next sum. -/
private theorem step_B (c : Dev nD) (lab : Fin 65536 → Fin 256) (hlab : Labelled m c lab) (t : Fin cfg0.N)
    (h0 : ¬ t.val % 16 = 0)
    (ih : (outsAt0 m c (t.val - 1) (Nat.lt_of_le_of_lt (Nat.sub_le _ _) t.isLt)).2 = accBlk m c lab (t.val - 1)) :
    outsAt0 m c t.val t.isLt = (lossBlk m c lab t.val, accBlk m c lab t.val) := by
  refine (outsAt0_B m c t h0).trans (congrArg₂ Prod.mk ?_ ?_)
  · exact (loss_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (fblk m c t) (lblk m c t) (cblk m c t) (ablk m c t) (outsAt0 m c (t.val - 1) (Nat.lt_of_le_of_lt (Nat.sub_le _ _) t.isLt)).2).trans (pay8_blk m c lab hlab t)
  · refine (acc_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (fblk m c t) (lblk m c t) (cblk m c t) (ablk m c t) (outsAt0 m c (t.val - 1) (Nat.lt_of_le_of_lt (Nat.sub_le _ _) t.isLt)).2).trans ?_
    rw [ih]
    funext y
    obtain ⟨k, d, rfl⟩ := idx_plane y
    refine (pay9_blk m c lab hlab t (accBlk m c lab (t.val - 1)) k d).trans ?_
    exact (Cert.Spec.accN_step (Xa m c) (Ca m c) (Wa m c) lab t.val h0 k d).symm

/-- After point n the loss window holds tile n's losses and the update window the running sum after tile n. -/
theorem outs_eq (c : Dev nD) (lab : Fin 65536 → Fin 256) (hlab : Labelled m c lab) :
    ∀ (n : ℕ) (hn : n < cfg0.N), outsAt0 m c n hn = (lossBlk m c lab n, accBlk m c lab n) := by
  intro n
  induction n with
  | zero => intro hn; exact step_A m c lab hlab ⟨0, hn⟩ rfl
  | succ n ih =>
    intro hn
    by_cases h0 : (n + 1) % 16 = 0
    · exact step_A m c lab hlab ⟨n + 1, hn⟩ h0
    · have ih2 : (outsAt0 m c n (Nat.lt_of_succ_lt hn)).2 = accBlk m c lab n := by rw [ih]
      exact step_B m c lab hlab ⟨n + 1, hn⟩ h0 ih2

end Cert.KernelIdeal.KVal

end
-- ==== Proof.KArrays.lean ====
/-
  From blocks to arrays. The loss window is written back at every point, tile t to rows 2048·t …, so the [65536, 1]
  result ends at the per-row loss. The update window is written back at the last tile of each half (points 15 and 31)
  to slab 0 and slab 1 of the [2, 256, 1024] result, which therefore ends at the two halves' totals.
-/
import proofs.«409492_j58514634440869_1_alg».proof.Proof.KPoints

noncomputable section

namespace Cert.KernelIdeal.KVal

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-- The two halves' totals, as the [2, 256, 1024] array. -/
def partArr (c : Dev nD) (lab : Fin 65536 → Fin 256) : S2x256x1024.Idx → EReal :=
  fun j => Cert.Spec.accN (Xa m c) (Ca m c) (Wa m c) lab (16 * (j 0).val + 15) (j 1) (j 2)

/-- Tile t's loss block is block (t, 0) of the [65536, 1] array. -/
theorem loss_idx : ∀ t : Fin cfg0.N, win0_4.index t (0 : Fin 2) = t.val ∧ win0_4.index t (1 : Fin 2) = 0 :=
  (by decide +kernel : ∀ t : Fin grid0.N, _)

/-- Point t's update block is slab t / 16 of the [2, 256, 1024] array. -/
theorem acc_idx : ∀ t : Fin cfg0.N, win0_5.index t (0 : Fin 3) = t.val / 16 ∧ win0_5.index t (1 : Fin 3) = 0
    ∧ win0_5.index t (2 : Fin 3) = 0 :=
  (by decide +kernel : ∀ t : Fin grid0.N, _)

/-- What point t writes back to the loss array is block t of the per-row loss: row r of tile t is row 2048·t + r. -/
theorem loss_flushed (c : Dev nD) (lab : Fin 65536 → Fin 256) (hlab : Labelled m c lab) (t : Fin cfg0.N) :
    (dats m 0 c).flushed 4 t
      = ((cfg0.win 4).blk t).view.read (Elt Ideal) (Cert.Spec.out0 (Xa m c) (Ca m c) lab) := by
  show (cfg0.win 4).cut (grid0.coords t) ((dats m 0 c).after 4 t) = _
  rw [after0_4, outs_eq m c lab hlab]
  obtain ⟨e0, e1⟩ := loss_idx t
  have hN : cfg0.N = 32 := N_0
  have ht : t.val < 32 := lt_of_lt_of_eq t.isLt hN
  funext y
  show Cert.Spec.lossAt (Xa m c) (Ca m c) lab (Cert.Spec.rowN t.val (y 0))
    = Cert.Spec.lossAt (Xa m c) (Ca m c) lab ((((cfg0.win 4).blk t).view.emb y) 0)
  refine congrArg (Cert.Spec.lossAt (Xa m c) (Ca m c) lab) (Fin.ext ?_)
  show (t.val % 32) * 2048 + (y 0).val = win0_4.index t (0 : Fin 2) * 2048 + 1 * (y 0).val
  rw [e0]; omega

/-- An index of the loss array is in point t's block iff each coordinate is in the block's range on its axis. -/
theorem loss_mem (t : Fin cfg0.N) (i : S65536x1.Idx) :
    i ∈ ((cfg0.win 4).blk t).view.set ↔ ∀ a : Fin 2, win0_4.index t a * S2048x1.size a ≤ (i a).val
      ∧ (i a).val < win0_4.index t a * S2048x1.size a + S2048x1.size a := by
  show i ∈ ((View.whole main_v22_0).slice (win0_4.rect t)).set ↔ _
  rw [View.set_slice_whole, Rect.mem_set_unit]
  exact Iff.rfl

/-- The first result array ends at the per-row loss. -/
theorem final_loss (c : Dev nD) (lab : Fin 65536 → Fin 256) (hlab : Labelled m c lab) :
    (dats m 0 c).arrAt 4 cfg0.N = Cert.Spec.out0 (Xa m c) (Ca m c) lab := by
  have hN : cfg0.N = 32 := N_0
  refine (dats m 0 c).arrAt_eq_of_cover 4 (Cert.Spec.out0 (Xa m c) (Ca m c) lab)
    (fun t _ => loss_flushed m c lab hlab t) fun i => ?_
  -- row i lies in the block of tile i / 2048
  have hi0 : (i 0).val < 65536 := (i 0).isLt
  have hi1 : (i 1).val < 1 := (i 1).isLt
  have hlt : (i 0).val / 2048 < cfg0.N := by rw [hN]; omega
  obtain ⟨e0, e1⟩ := loss_idx ⟨(i 0).val / 2048, hlt⟩
  have e0' : win0_4.index ⟨(i 0).val / 2048, hlt⟩ (0 : Fin 2) = (i 0).val / 2048 := e0
  refine ⟨⟨(i 0).val / 2048, hlt⟩, flush0_4 _, ?_⟩
  rw [loss_mem]
  intro a
  match a with
  | ⟨0, _⟩ =>
    show win0_4.index ⟨(i 0).val / 2048, hlt⟩ (0 : Fin 2) * 2048 ≤ (i 0).val
      ∧ (i 0).val < win0_4.index ⟨(i 0).val / 2048, hlt⟩ (0 : Fin 2) * 2048 + 2048
    rw [e0']; omega
  | ⟨1, _⟩ =>
    show win0_4.index ⟨(i 0).val / 2048, hlt⟩ (1 : Fin 2) * 1 ≤ (i 1).val
      ∧ (i 1).val < win0_4.index ⟨(i 0).val / 2048, hlt⟩ (1 : Fin 2) * 1 + 1
    rw [e1]; omega

/-- The running sum read at equal tile, centre and column is the same number. -/
private theorem accN_congr (c : Dev nD) (lab : Fin 65536 → Fin 256) {n n' : ℕ} {a a' : Fin 256} {b b' : Fin 1024}
    (hn : n = n') (ha : a = a') (hb : b = b') :
    Cert.Spec.accN (Xa m c) (Ca m c) (Wa m c) lab n a b = Cert.Spec.accN (Xa m c) (Ca m c) (Wa m c) lab n' a' b' := by
  subst hn ha hb; rfl

/-- What the last point t of a half writes back is slab t / 16 of the halves' totals: there 16·(t / 16) + 15 = t. -/
theorem acc_flushed (c : Dev nD) (lab : Fin 65536 → Fin 256) (hlab : Labelled m c lab) (t : Fin cfg0.N)
    (hf : (cfg0.win 5).flush t = true) :
    (dats m 0 c).flushed 5 t = ((cfg0.win 5).blk t).view.read (Elt Ideal) (partArr m c lab) := by
  have h15 : t.val % 16 = 15 := (flush0_5 t).mp hf
  show (cfg0.win 5).cut (grid0.coords t) ((dats m 0 c).after 5 t) = _
  rw [after0_5, outs_eq m c lab hlab]
  obtain ⟨e0, e1, e2⟩ := acc_idx t
  funext y
  have hy0 : (y 0).val < 1 := (y 0).isLt
  show Cert.Spec.accN (Xa m c) (Ca m c) (Wa m c) lab t.val (y 1) (y 2)
    = Cert.Spec.accN (Xa m c) (Ca m c) (Wa m c) lab (16 * ((((cfg0.win 5).blk t).view.emb y) 0).val + 15)
        ((((cfg0.win 5).blk t).view.emb y) 1) ((((cfg0.win 5).blk t).view.emb y) 2)
  refine accN_congr m c lab ?_ (Fin.ext ?_) (Fin.ext ?_)
  · show t.val = 16 * (win0_5.index t (0 : Fin 3) * 1 + 1 * (y 0).val) + 15
    rw [e0]; omega
  · show (y 1).val = win0_5.index t (1 : Fin 3) * 256 + 1 * (y 1).val
    rw [e1]; omega
  · show (y 2).val = win0_5.index t (2 : Fin 3) * 1024 + 1 * (y 2).val
    rw [e2]; omega

/-- An index of the partial-sums array is in point t's block iff each coordinate is in the block's range on its axis. -/
theorem acc_mem (t : Fin cfg0.N) (i : S2x256x1024.Idx) :
    i ∈ ((cfg0.win 5).blk t).view.set ↔ ∀ a : Fin 3, win0_5.index t a * S1x256x1024.size a ≤ (i a).val
      ∧ (i a).val < win0_5.index t a * S1x256x1024.size a + S1x256x1024.size a := by
  show i ∈ ((View.whole main_v22_1).slice (win0_5.rect t)).set ↔ _
  rw [View.set_slice_whole, Rect.mem_set_unit]
  exact Iff.rfl

/-- The partial-sums array ends at the two halves' totals. -/
theorem final_acc (c : Dev nD) (lab : Fin 65536 → Fin 256) (hlab : Labelled m c lab) :
    (dats m 0 c).arrAt 5 cfg0.N = partArr m c lab := by
  have hN : cfg0.N = 32 := N_0
  refine (dats m 0 c).arrAt_eq_of_cover 5 (partArr m c lab)
    (fun t hf => acc_flushed m c lab hlab t hf) fun i => ?_
  -- slab p is written back by the last point of half p
  have hi0 : (i 0).val < 2 := (i 0).isLt
  have hi1 : (i 1).val < 256 := (i 1).isLt
  have hi2 : (i 2).val < 1024 := (i 2).isLt
  have hlt : 16 * (i 0).val + 15 < cfg0.N := by rw [hN]; omega
  obtain ⟨e0, e1, e2⟩ := acc_idx ⟨16 * (i 0).val + 15, hlt⟩
  have e0' : win0_5.index ⟨16 * (i 0).val + 15, hlt⟩ (0 : Fin 3) = (16 * (i 0).val + 15) / 16 := e0
  refine ⟨⟨16 * (i 0).val + 15, hlt⟩, (flush0_5 _).mpr (by show (16 * (i 0).val + 15) % 16 = 15; omega), ?_⟩
  rw [acc_mem]
  intro a
  match a with
  | ⟨0, _⟩ =>
    show win0_5.index ⟨16 * (i 0).val + 15, hlt⟩ (0 : Fin 3) * 1 ≤ (i 0).val
      ∧ (i 0).val < win0_5.index ⟨16 * (i 0).val + 15, hlt⟩ (0 : Fin 3) * 1 + 1
    rw [e0']; omega
  | ⟨1, _⟩ =>
    show win0_5.index ⟨16 * (i 0).val + 15, hlt⟩ (1 : Fin 3) * 256 ≤ (i 1).val
      ∧ (i 1).val < win0_5.index ⟨16 * (i 0).val + 15, hlt⟩ (1 : Fin 3) * 256 + 256
    rw [e1]; omega
  | ⟨2, _⟩ =>
    show win0_5.index ⟨16 * (i 0).val + 15, hlt⟩ (2 : Fin 3) * 1024 ≤ (i 2).val
      ∧ (i 2).val < win0_5.index ⟨16 * (i 0).val + 15, hlt⟩ (2 : Fin 3) * 1024 + 1024
    rw [e2]; omega

end Cert.KernelIdeal.KVal

end
-- ==== Proof.KRun.lean ====
/-
  The host lines after the region add the two halves' totals, scale by γ and subtract from the centres; so the
  idealized kernel's run ends with the per-row loss in its first result and the updated centres in its second.
-/
import proofs.«409492_j58514634440869_1_alg».proof.Proof.KArrays
import Idealize.ShloMosaic.Lib.StableHlo.Run
import Idealize.ShloMosaic.PureOps.Ideal.Laws
import Idealize.ShloMosaic.Lib.IdealHost

noncomputable section

namespace Cert.KernelIdeal.KVal

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-- The three closing operations read at an index: the centre's entry less γ times the sum, over the two slabs, of the
    partial sums there (the sum over axis 0 starts from the pattern of zero, which is 0). -/
private theorem tail_val (Cc : (⟨S256x1024, .f32⟩ : BufTy).Contents (Elt Ideal))
    (P : (⟨S2x256x1024, .f32⟩ : BufTy).Contents (Elt Ideal)) (j : S256x1024.Idx) :
    subf Cc (mulf (broadcastInDim S256x1024 ![] bcast_S_S256x1024 (constant (F := Ideal) S_ .f32 0x3C23D70A#32))
        (Host.reduceAdd P (constant (F := Ideal) S_ .f32 0x00000000#32) reducesTo_S2x256x1024_S256x1024_d0 h_S_)) j
      = Cc j - Cert.Spec.gamma * ∑ p : Fin 2, P (ix3 p (j 0) (j 1)) := by
  rw [subf_apply, mulf_apply, broadcastInDim_scalar_apply, constant_apply, hostReduceAdd_apply, constant_apply,
    Ideal.hostReduceAdd_single reducesTo_S2x256x1024_S256x1024_d0 (by decide), Ideal.ofBits_zero_f32, zero_add]
  refine congrArg (fun s => Cc j - Cert.Spec.gamma * s) (Finset.sum_congr rfl fun p _ => ?_)
  exact congrArg P (funext fun a => Fin.ext (by match a with | ⟨0, _⟩ => rfl | ⟨1, _⟩ => rfl | ⟨2, _⟩ => rfl))

/-- The second result: the centres less γ times the sum of the two halves' totals, which is the whole update. -/
theorem tail_eq (c : Dev nD) (lab : Fin 65536 → Fin 256) (hlab : Labelled m c lab) :
    Pipeline.afterTail₀ cfgs (dats m) 0 (V0 m) [hostOps1] c main_v26
      = Cert.Spec.out1 (Xa m c) (Ca m c) (Wa m c) lab := by
  unfold Pipeline.afterTail₀
  show StableHlo.after hostOps1 _ (Proc.devRef .tc main_v26) = _
  after_results
  have h5 : Pipeline.withArrays spec0 c (V0 m c) (fun w => (dats m 0 c).arrAt w cfg0.N) (Proc.devRef .tc main_v22_1)
      = partArr m c lab :=
    (Pipeline.withArrays_arr spec0 launch0.win.arr_inj c _ _ 5).trans (final_acc m c lab hlab)
  have h2 : Pipeline.withArrays spec0 c (V0 m c) (fun w => (dats m 0 c).arrAt w cfg0.N) (Proc.devRef .tc main_arg2)
      = Ca m c :=
    (Pipeline.withArrays_arr spec0 launch0.win.arr_inj c _ _ 2).trans
      (((dats m 0 c).arrAt_in 2 rfl _).trans ((A_eq m c 2).trans (V_main_arg2 m c)))
  funext j
  refine (tail_val _ _ j).trans ?_
  rw [h2, h5]
  show Ca m c j - Cert.Spec.gamma
      * ∑ p : Fin 2, Cert.Spec.accN (Xa m c) (Ca m c) (Wa m c) lab (16 * p.val + 15) (j 0) (j 1)
    = Ca m c j - Cert.Spec.gamma * Cert.Spec.wdc (Xa m c) (Ca m c) (Wa m c) lab (j 0) (j 1)
  exact congrArg (fun s => Ca m c j - Cert.Spec.gamma * s)
    (Cert.Spec.wdc_halves (Xa m c) (Ca m c) (Wa m c) lab (j 0) (j 1))

/-- The idealized kernel's run, read: both results as functions of the arguments, the arguments unchanged. -/
theorem run (lab : Dev nD → Fin 65536 → Fin 256) (hlab : ∀ c, Labelled m c (lab c)) :
    θ_run defs (onTc (τ := τ) (main (F := Ideal))) ⟨m, fun _ => 0, ρ⟩ fun r => ∀ c : Dev nD,
      r.2.mem ((c.tc : Thread nD τ).loc main_v22_0) = Cert.Spec.out0 (Xa m c) (Ca m c) (lab c)
      ∧ r.2.mem ((c.tc : Thread nD τ).loc main_v26) = Cert.Spec.out1 (Xa m c) (Ca m c) (Wa m c) (lab c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).1 4).trans (final_loss m c (lab c) (hlab c)),
     ((h c).2 main_v26 (Pipeline.mem_restRefs_of main_v26 (by decide) (by decide))).trans (tail_eq m c (lab c) (hlab c)),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c))),
     ((h c).1 2).trans (((dats m 0 c).arrAt_in 2 rfl _).trans ((A_eq m c 2).trans (V_main_arg2 m c))),
     ((h c).2 main_arg3 (Pipeline.mem_restRefs_of main_arg3 (by decide) (by decide))).trans (W_main_arg3 m (dats m) c)⟩)
    (run_main m ρ)

end Cert.KernelIdeal.KVal

end
-- ==== Proof.RefReads.lean ====
/-
  The reference's three index-driven operations read at an index, when the index column holds in-range labels:
  the row gather of the centres reads row (lab i); the gather of a length-256 vector reads entry (lab i); the
  accumulating scatter adds, to entry (c, d), the updates of the rows labelled c.
-/
import proofs.«409492_j58514634440869_1_alg».proof.Proof.Gen.ReferenceIdeal
import proofs.«409492_j58514634440869_1_alg».proof.Proof.Spec
import Idealize.ShloMosaic.Lib.StableHlo.Predicate
import Idealize.ShloMosaic.PureOps.Ideal.Laws

noncomputable section

namespace Cert.ReferenceIdeal.RefVal

open Idealize.ShloMosaic Idealize.ShloMosaic.ValueIdx
open Cert.ReferenceIdeal

variable (lab : Fin 65536 → Fin 256)

/-- A label word, read signed, is the label. -/
private theorem lab_toInt (c : Fin 256) : (BitVec.ofNat 32 c.val).toInt = (c.val : ℤ) :=
  StableHlo.Predicate.toInt_ofNat_small _ (by have := c.isLt; omega)

/-- Row i of the gathered centres is centre (lab i). -/
theorem gather_rows (T : S256x1024.Idx → EReal) (idx : IVec S65536x1 32)
    (h : ∀ i : Fin 65536, idx (ix2 i 0) = BitVec.ofNat 32 (lab i).val) (i : Fin 65536) (d : Fin 1024) :
    Host.gather gather_S256x1024_S65536x1_S65536x1024_1_0_n_n_0_1_11024 T idx (ix2 i d) = T (ix2 (lab i) d) := by
  unfold Host.gather
  congr 1
  funext a
  refine Fin.ext ?_
  match a with
  | ⟨0, _⟩ =>
    -- the collapsed axis: the clamped start alone, and the start is the label
    show gather_S256x1024_S65536x1_S65536x1024_1_0_n_n_0_1_11024.start (ix2 i d) idx 0
      + gather_S256x1024_S65536x1_S65536x1024_1_0_n_n_0_1_11024.batchCoord (ix2 i d) 0
      + gather_S256x1024_S65536x1_S65536x1024_1_0_n_n_0_1_11024.offCoord (ix2 i d) 0 = (lab i).val
    rw [GatherDims.batchCoord_eq_zero _ _ _ List.not_mem_nil,
      GatherDims.offCoord_eq_zero _ _ _ (fun hk => ((GatherDims.mem_sKept _ _).mp hk).1 (List.mem_singleton.mpr rfl))]
    simp only [Nat.add_zero]
    unfold GatherDims.start
    rw [dif_pos (show (0 : Fin 2) ∈ gather_S256x1024_S65536x1_S65536x1024_1_0_n_n_0_1_11024.startIndexMap from
      List.mem_singleton.mpr rfl)]
    have hsi : gather_S256x1024_S65536x1_S65536x1024_1_0_n_n_0_1_11024.siIdx (ix2 i d)
        ⟨List.idxOf (0 : Fin 2) gather_S256x1024_S65536x1_S65536x1024_1_0_n_n_0_1_11024.startIndexMap,
          List.idxOf_lt_length_iff.2 (List.mem_singleton.mpr rfl)⟩ = ix2 i 0 := by
      funext b; refine Fin.ext ?_
      match b with
      | ⟨0, _⟩ => rfl
      | ⟨1, _⟩ => rfl
    rw [hsi, h i, lab_toInt]
    show min ((lab i).val : ℤ).toNat (256 - 1) = (lab i).val
    have := (lab i).isLt
    omega
  | ⟨1, _⟩ =>
    -- the kept axis: no start, the offset coordinate is the column
    show gather_S256x1024_S65536x1_S65536x1024_1_0_n_n_0_1_11024.start (ix2 i d) idx 1
      + gather_S256x1024_S65536x1_S65536x1024_1_0_n_n_0_1_11024.batchCoord (ix2 i d) 1
      + gather_S256x1024_S65536x1_S65536x1024_1_0_n_n_0_1_11024.offCoord (ix2 i d) 1 = d.val
    rw [GatherDims.batchCoord_eq_zero _ _ _ List.not_mem_nil]
    unfold GatherDims.start GatherDims.offCoord
    rw [dif_neg (by decide), dif_pos (by decide)]
    simp only [Nat.add_zero, Nat.zero_add]
    rfl

/-- Entry i of a gathered length-256 vector is its entry (lab i). -/
theorem gather_vec (T : S256.Idx → EReal) (idx : IVec S65536x1 32)
    (h : ∀ i : Fin 65536, idx (ix2 i 0) = BitVec.ofNat 32 (lab i).val) (i : Fin 65536) :
    Host.gather gather_S256_S65536x1_S65536_n_0_n_n_0_1_1 T idx (ix1 i) = T (ix1 (lab i)) := by
  have hi : (ix1 i : S65536.Idx) = Shape.Idx.ofFin i := by
    funext a; match a with | ⟨0, _⟩ => rfl
  have hP : (StableHlo.Predicate.ixP i : S65536x1.Idx) = ix2 i 0 := by
    funext a; match a with | ⟨0, _⟩ => rfl | ⟨1, _⟩ => rfl
  rw [hi, StableHlo.Predicate.gather_take _ rfl rfl rfl rfl T idx i (by norm_num)]
  congr 1
  funext a
  match a with
  | ⟨0, _⟩ =>
    refine Fin.ext ?_
    show min (idx (StableHlo.Predicate.ixP i)).toInt.toNat (256 - 1) = (lab i).val
    rw [hP, h i, lab_toInt]
    have := (lab i).isLt
    omega

/-- Entry (c, d) of the accumulating scatter: the operand's entry plus the updates of the rows labelled c. -/
theorem scatterAdd_apply (Z : S256x1024.Idx → EReal) (idx : IVec S65536x1 32)
    (h : ∀ i : Fin 65536, idx (ix2 i 0) = BitVec.ofNat 32 (lab i).val) (Upd : S65536x1024.Idx → EReal)
    (c : Fin 256) (d : Fin 1024) :
    Host.scatterAdd (F := Ideal) (φ := .f32) scatter_S256x1024_S65536x1_S65536x1024_1_0_0_1 Z idx Upd (ix2 c d)
      = Z (ix2 c d) + ∑ i : Fin 65536, if lab i = c then Upd (ix2 i d) else 0 := by
  classical
  -- the start on the scattered axis is the label, on the window axis nothing; the window coordinate is the column
  have hstart0 : ∀ (i : Fin 65536) (b : Fin 1024),
      scatter_S256x1024_S65536x1_S65536x1024_1_0_0_1.start (ix2 i b) idx 0 = ((lab i).val : ℤ) := by
    intro i b
    unfold ScatterDims.start
    rw [dif_pos (show (0 : Fin 2) ∈ scatter_S256x1024_S65536x1_S65536x1024_1_0_0_1.scatterDimsToOperandDims from
      List.mem_singleton.mpr rfl)]
    have hsi : scatter_S256x1024_S65536x1_S65536x1024_1_0_0_1.siIdx (ix2 i b)
        ⟨List.idxOf (0 : Fin 2) scatter_S256x1024_S65536x1_S65536x1024_1_0_0_1.scatterDimsToOperandDims,
          List.idxOf_lt_length_iff.2 (List.mem_singleton.mpr rfl)⟩ = ix2 i 0 := by
      funext a; refine Fin.ext ?_
      match a with
      | ⟨0, _⟩ => rfl
      | ⟨1, _⟩ => rfl
    rw [hsi, h i, lab_toInt]
  have hstart1 : ∀ (i : Fin 65536) (b : Fin 1024),
      scatter_S256x1024_S65536x1_S65536x1024_1_0_0_1.start (ix2 i b) idx 1 = 0 := by
    intro i b
    unfold ScatterDims.start
    rw [dif_neg (by decide)]
  have hwin0 : ∀ (i : Fin 65536) (b : Fin 1024),
      scatter_S256x1024_S65536x1_S65536x1024_1_0_0_1.window (ix2 i b) 0 = 0 := by
    intro i b
    unfold ScatterDims.window
    rw [dif_neg (by decide)]
  have hwin1 : ∀ (i : Fin 65536) (b : Fin 1024),
      scatter_S256x1024_S65536x1_S65536x1024_1_0_0_1.window (ix2 i b) 1 = b.val := by
    intro i b
    unfold ScatterDims.window
    rw [dif_pos (by decide)]
    rfl
  -- an update lands at (c, d) exactly when its row is labelled c and its column is d
  have key : ∀ (i : Fin 65536) (b : Fin 1024),
      scatter_S256x1024_S65536x1_S65536x1024_1_0_0_1.resultIdx? (ix2 i b) idx = some (ix2 c d) ↔ lab i = c ∧ b = d := by
    intro i b
    have hl := (lab i).isLt
    have hb := b.isLt
    have hall : ∀ a : Fin 2, 0 ≤ scatter_S256x1024_S65536x1_S65536x1024_1_0_0_1.start (ix2 i b) idx a
          + scatter_S256x1024_S65536x1_S65536x1024_1_0_0_1.window (ix2 i b) a
        ∧ scatter_S256x1024_S65536x1_S65536x1024_1_0_0_1.start (ix2 i b) idx a
          + scatter_S256x1024_S65536x1_S65536x1024_1_0_0_1.window (ix2 i b) a < S256x1024.size a := by
      intro a
      match a with
      | ⟨0, _⟩ =>
        show 0 ≤ scatter_S256x1024_S65536x1_S65536x1024_1_0_0_1.start (ix2 i b) idx 0
            + (scatter_S256x1024_S65536x1_S65536x1024_1_0_0_1.window (ix2 i b) 0 : ℤ)
          ∧ scatter_S256x1024_S65536x1_S65536x1024_1_0_0_1.start (ix2 i b) idx 0
            + (scatter_S256x1024_S65536x1_S65536x1024_1_0_0_1.window (ix2 i b) 0 : ℤ) < ((256 : ℕ) : ℤ)
        rw [hstart0 i b, hwin0 i b]
        constructor <;> omega
      | ⟨1, _⟩ =>
        show 0 ≤ scatter_S256x1024_S65536x1_S65536x1024_1_0_0_1.start (ix2 i b) idx 1
            + (scatter_S256x1024_S65536x1_S65536x1024_1_0_0_1.window (ix2 i b) 1 : ℤ)
          ∧ scatter_S256x1024_S65536x1_S65536x1024_1_0_0_1.start (ix2 i b) idx 1
            + (scatter_S256x1024_S65536x1_S65536x1024_1_0_0_1.window (ix2 i b) 1 : ℤ) < ((1024 : ℕ) : ℤ)
        rw [hstart1 i b, hwin1 i b]
        constructor <;> omega
    unfold ScatterDims.resultIdx?
    rw [dif_pos hall, Option.some.injEq]
    constructor
    · intro e
      have e0 := congrArg Fin.val (congrFun e 0)
      have e1 := congrArg Fin.val (congrFun e 1)
      change (scatter_S256x1024_S65536x1_S65536x1024_1_0_0_1.start (ix2 i b) idx 0
        + (scatter_S256x1024_S65536x1_S65536x1024_1_0_0_1.window (ix2 i b) 0 : ℤ)).toNat = c.val at e0
      change (scatter_S256x1024_S65536x1_S65536x1024_1_0_0_1.start (ix2 i b) idx 1
        + (scatter_S256x1024_S65536x1_S65536x1024_1_0_0_1.window (ix2 i b) 1 : ℤ)).toNat = d.val at e1
      rw [hstart0 i b, hwin0 i b] at e0
      rw [hstart1 i b, hwin1 i b] at e1
      exact ⟨Fin.ext (by omega), Fin.ext (by omega)⟩
    · rintro ⟨hc, hd⟩
      funext a
      refine Fin.ext ?_
      show (scatter_S256x1024_S65536x1_S65536x1024_1_0_0_1.start (ix2 i b) idx a
          + (scatter_S256x1024_S65536x1_S65536x1024_1_0_0_1.window (ix2 i b) a : ℤ)).toNat = (ix2 c d a).val
      have hval : ∀ a : Fin 2, (scatter_S256x1024_S65536x1_S65536x1024_1_0_0_1.start (ix2 i b) idx a
          + (scatter_S256x1024_S65536x1_S65536x1024_1_0_0_1.window (ix2 i b) a : ℤ)).toNat = (ix2 c d a).val := by
        intro a
        match a with
        | ⟨0, _⟩ =>
          show (scatter_S256x1024_S65536x1_S65536x1024_1_0_0_1.start (ix2 i b) idx 0
            + (scatter_S256x1024_S65536x1_S65536x1024_1_0_0_1.window (ix2 i b) 0 : ℤ)).toNat = c.val
          rw [hstart0 i b, hwin0 i b, hc]
          omega
        | ⟨1, _⟩ =>
          show (scatter_S256x1024_S65536x1_S65536x1024_1_0_0_1.start (ix2 i b) idx 1
            + (scatter_S256x1024_S65536x1_S65536x1024_1_0_0_1.window (ix2 i b) 1 : ℤ)).toNat = d.val
          rw [hstart1 i b, hwin1 i b, hd]
          omega
      exact hval a
  show Ideal.hostScatterAdd scatter_S256x1024_S65536x1_S65536x1024_1_0_0_1 Z idx Upd (ix2 c d) = _
  unfold Ideal.hostScatterAdd
  refine congrArg (fun s => Z (ix2 c d) + s) ?_
  rw [Finset.sum_filter, sum_idx2]
  refine Finset.sum_congr rfl fun i _ => ?_
  simp only [key]
  by_cases hc : lab i = c
  · simp only [hc, true_and]
    rw [Finset.sum_ite_eq' Finset.univ d (fun b => Upd (ix2 i b))]
    simp
  · simp only [hc, false_and, if_false, Finset.sum_const_zero]

end Cert.ReferenceIdeal.RefVal

end
-- ==== Proof.RefDen.lean ====
/-
  The reference's denominator: the gathered sum of clamped squared distances plus one. The reference doubles the
  centres before the inner product where the specification doubles the inner product; over finite centres the two agree.
-/
import proofs.«409492_j58514634440869_1_alg».proof.Proof.RefReads
import proofs.«409492_j58514634440869_1_alg».proof.Proof.Gen.ReferenceIdeal.Read

noncomputable section

namespace Cert.ReferenceIdeal.RefVal

open Idealize.ShloMosaic Idealize.ShloMosaic.ValueIdx
open Cert.ReferenceIdeal

variable (lab : Fin 65536 → Fin 256)

/-! ## The label column: a word below 256 is not negative, so the wrap-around select keeps it -/

/-- A select on "w < 0 (signed)" keeps its second branch when w is a small natural number. -/
private theorem select_not_neg (v : ℕ) (hv : v < 256) (a b : BitVec 32) :
    Scalar.select (IntOp.cmpi .slt (BitVec.ofNat 32 v) 0#32) a b = b := by
  have h : ¬ IntOp.cmpi .slt (BitVec.ofNat 32 v) 0#32 = 1#1 := by
    intro h
    have := (StableHlo.Predicate.slt_ofNat_iff v 0 (by omega) (by norm_num)).mp h
    omega
  exact if_neg h

/-- Reshaping the column [65536, 1] to a vector and broadcasting it back reads entry (i, 0). -/
private theorem idx_col6 (i : Fin 65536) : Read.idx_main_v0 (Read.idx_main_v6 (ix2 i 0)) = ix2 i 0 :=
  funext fun a => Fin.ext (by match a with | ⟨0, _⟩ => exact Nat.div_one _ | ⟨1, _⟩ => rfl)
private theorem idx_col31 (i : Fin 65536) : Read.idx_main_v0 (Read.idx_main_v31 (ix2 i 0)) = ix2 i 0 :=
  funext fun a => Fin.ext (by match a with | ⟨0, _⟩ => exact Nat.div_one _ | ⟨1, _⟩ => rfl)
private theorem idx_col42 (i : Fin 65536) : Read.idx_main_v0 (Read.idx_main_v42 (ix2 i 0)) = ix2 i 0 :=
  funext fun a => Fin.ext (by match a with | ⟨0, _⟩ => exact Nat.div_one _ | ⟨1, _⟩ => rfl)
private theorem idx_col49 (i : Fin 65536) : Read.idx_main_v0 (Read.idx_main_v49 (ix2 i 0)) = ix2 i 0 :=
  funext fun a => Fin.ext (by match a with | ⟨0, _⟩ => exact Nat.div_one _ | ⟨1, _⟩ => rfl)

/-- The index column the gathers read: negative labels wrapped by 256; an in-range label is left as it is. -/
theorem wrapped_idx (L : S65536x1.Idx → BitVec 32) (hL : ∀ i : Fin 65536, L (ix2 i 0) = BitVec.ofNat 32 (lab i).val) (i : Fin 65536) :
    Read.val_main_v6 (F := Ideal) L (ix2 i 0) = BitVec.ofNat 32 (lab i).val
    ∧ Read.val_main_v31 (F := Ideal) L (ix2 i 0) = BitVec.ofNat 32 (lab i).val
    ∧ Read.val_main_v42 (F := Ideal) L (ix2 i 0) = BitVec.ofNat 32 (lab i).val
    ∧ Read.val_main_v49 (F := Ideal) L (ix2 i 0) = BitVec.ofNat 32 (lab i).val := by
  have hlt : (lab i).val < 256 := (lab i).isLt
  refine ⟨?_, ?_, ?_, ?_⟩
  · rw [Read.val_main_v6_apply, Read.val_main_v5_apply, Read.val_main_v2_apply, Read.val_main_v0_apply,
      Read.val_main_v1_apply, Read.val_main_c_apply, idx_col6, hL]
    exact select_not_neg _ hlt _ _
  · rw [Read.val_main_v31_apply, Read.val_main_v30_apply, Read.val_main_v27_apply, Read.val_main_v0_apply,
      Read.val_main_v26_apply, Read.val_main_c_5_apply, idx_col31, hL]
    exact select_not_neg _ hlt _ _
  · rw [Read.val_main_v42_apply, Read.val_main_v41_apply, Read.val_main_v38_apply, Read.val_main_v0_apply,
      Read.val_main_v37_apply, Read.val_main_c_8_apply, idx_col42, hL]
    exact select_not_neg _ hlt _ _
  · rw [Read.val_main_v49_apply, Read.val_main_v0_apply, idx_col49, hL]

/-! ## The pairwise distances, entry by entry -/

private theorem idx_sq (c : Fin 256) (k : Fin 1024) : Read.idx_main_v12 (ix1 c) k = ix2 c k :=
  funext fun a => Fin.ext (by match a with | ⟨0, _⟩ => rfl | ⟨1, _⟩ => rfl)
private theorem idx_rowsq (c c' : Fin 256) : Read.idx_main_v13 (Read.idx_main_v15 (ix2 c c')) = ix1 c :=
  funext fun a => Fin.ext (by match a with | ⟨0, _⟩ => rfl)
private theorem idx_colsq (c c' : Fin 256) : Read.idx_main_v14 (Read.idx_main_v16 (ix2 c c')) = ix1 c' :=
  funext fun a => Fin.ext (by match a with | ⟨0, _⟩ => rfl)
private theorem idx_lhs (c c' : Fin 256) (k : Fin 1024) : Read.lidx_main_v21 (ix2 c c') k = ix2 c k :=
  funext fun a => Fin.ext (by match a with | ⟨0, _⟩ => rfl | ⟨1, _⟩ => rfl)
private theorem idx_rhs (c c' : Fin 256) (k : Fin 1024) : Read.idx_main_v20 (Read.ridx_main_v21 (ix2 c c') k) = ix2 c' k :=
  funext fun a => Fin.ext (by match a with | ⟨0, _⟩ => rfl | ⟨1, _⟩ => rfl)
private theorem idx_pcd (c k : Fin 256) : Read.idx_main_v25 (ix1 c) k = ix2 c k :=
  funext fun a => Fin.ext (by match a with | ⟨0, _⟩ => rfl | ⟨1, _⟩ => rfl)

/-- The row sums of squares are the squared norms. -/
private theorem ref_sq (C : S256x1024.Idx → EReal) (c : Fin 256) :
    Read.val_main_v12 (F := Ideal) C (ix1 c) = Cert.Spec.sq C c := by
  rw [Read.val_main_v12_apply, Read.val_main_cst_1_apply]
  simp only [Read.val_main_v11_apply, idx_sq, Ideal.mulf_def, Ideal.ofBits_def, Ideal.ofBits_zero_f32, zero_add]
  rfl

/-- The two broadcasts of the squared norms, added: sq c + sq c'. -/
private theorem ref_sqsum (C : S256x1024.Idx → EReal) (c c' : Fin 256) :
    Read.val_main_v17 (F := Ideal) C (ix2 c c') = Cert.Spec.sq C c + Cert.Spec.sq C c' := by
  rw [Read.val_main_v17_apply, Read.val_main_v15_apply, Read.val_main_v13_apply, Read.val_main_v16_apply,
    Read.val_main_v14_apply, idx_rowsq, idx_colsq, ref_sq, ref_sq]
  rfl

/-- The product of the doubled centres with the transposed centres is twice the inner product (finite centres). -/
private theorem ref_gram (C : S256x1024.Idx → EReal) (hC : ∀ j, ∃ r : ℝ, C j = (r : EReal)) (c c' : Fin 256) :
    Read.val_main_v21 (F := Ideal) C (ix2 c c') = Cert.Spec.two * Cert.Spec.gram C c c' := by
  rw [Read.val_main_v21_apply, Cert.Spec.two_gram C hC]
  refine Finset.sum_congr rfl fun k _ => ?_
  rw [Read.val_main_v19_apply, Read.val_main_v18_apply, Read.val_main_cst_2_apply, Read.val_main_v20_apply,
    idx_lhs, idx_rhs]
  rfl

/-- The clamped difference is the specification's pair distance. -/
private theorem ref_pair (C : S256x1024.Idx → EReal) (hC : ∀ j, ∃ r : ℝ, C j = (r : EReal)) (c c' : Fin 256) :
    Read.val_main_v24 (F := Ideal) C (ix2 c c') = Cert.Spec.pair C c c' := by
  rw [Read.val_main_v24_apply, Read.val_main_v22_apply, Read.val_main_v23_apply, Read.val_main_cst_3_apply,
    ref_sqsum, ref_gram C hC]
  simp only [Ideal.maximumf_def, Ideal.subf_def, Ideal.ofBits_def, Ideal.ofBits_zero_f32]
  rfl

/-- The reference's per-class sum of clamped squared distances is the specification's. -/
theorem ref_pcd (C : S256x1024.Idx → EReal) (hC : ∀ j, ∃ r : ℝ, C j = (r : EReal)) (c : Fin 256) :
    Read.val_main_v25 (F := Ideal) C (ix1 c) = Cert.Spec.pcd C c := by
  rw [Read.val_main_v25_apply, Read.val_main_cst_4_apply]
  simp only [Ideal.ofBits_def, Ideal.ofBits_zero_f32, zero_add]
  refine Finset.sum_congr rfl fun k _ => ?_
  rw [idx_pcd, ref_pair C hC]

/-- The reference's denominator of row i. -/
theorem ref_den (L : S65536x1.Idx → BitVec 32) (C : S256x1024.Idx → EReal)
    (hL : ∀ i : Fin 65536, L (ix2 i 0) = BitVec.ofNat 32 (lab i).val) (hC : ∀ j, ∃ r : ℝ, C j = (r : EReal)) (i : Fin 65536) :
    Read.val_main_v34 (F := Ideal) L C (ix1 i) = Cert.Spec.den C (lab i) := by
  rw [Read.val_main_v34_apply, Read.val_main_v33_apply, Read.val_main_cst_7_apply]
  unfold Read.val_main_v32
  rw [gather_vec lab _ _ (fun i => (wrapped_idx lab L hL i).2.1) i, ref_pcd C hC]
  rfl

end Cert.ReferenceIdeal.RefVal

end
-- ==== Proof.RefValue.lean ====
/-
  The reference's two results are the specification's, index by index: the row less its gathered centre, its squared
  norm over the denominator; and the centres less γ times the accumulating scatter of the contributions.
-/
import proofs.«409492_j58514634440869_1_alg».proof.Proof.RefDen

noncomputable section

namespace Cert.ReferenceIdeal.RefVal

open Idealize.ShloMosaic Idealize.ShloMosaic.ValueIdx
open Cert.ReferenceIdeal

variable (lab : Fin 65536 → Fin 256)

variable (X : S65536x1024.Idx → EReal) (L : S65536x1.Idx → BitVec 32) (C : S256x1024.Idx → EReal) (W : S256.Idx → EReal)

/-- Row i less its centre. -/
theorem ref_diff (hL : ∀ i : Fin 65536, L (ix2 i 0) = BitVec.ofNat 32 (lab i).val) (i : Fin 65536) (d : Fin 1024) :
    Read.val_main_v8 (F := Ideal) X L C (ix2 i d) = Cert.Spec.diff X C lab i d := by
  -- the subtraction's right operand is the row gather, which reads centre (lab i)
  rw [Read.val_main_v8_apply]
  unfold Read.val_main_v7
  rw [gather_rows lab C (Read.val_main_v6 (F := Ideal) L) (fun i => (wrapped_idx lab L hL i).1) i d]
  rfl

/-- The first result is the per-row loss. -/
theorem ref_out0 (hL : ∀ i : Fin 65536, L (ix2 i 0) = BitVec.ofNat 32 (lab i).val) (hC : ∀ j, ∃ r : ℝ, C j = (r : EReal)) :
    Read.val_main_v36 (F := Ideal) X L C = Cert.Spec.out0 X C lab := by
  funext j
  obtain ⟨p, q, rfl⟩ : ∃ p q, j = ix2 p q := ⟨j 0, j 1, eq_ix2 j⟩
  -- the column broadcast reads the quotient at row p
  have e1 : Read.idx_main_v36 (ix2 p q) = ix1 p := funext fun a => Fin.ext (by match a with | ⟨0, _⟩ => rfl)
  rw [Read.val_main_v36_apply, e1, Read.val_main_v35_apply, Read.val_main_v10_apply, ref_den lab L C hL hC p]
  simp only [Read.val_main_cst_apply, Ideal.ofBits_def, Ideal.ofBits_zero_f32, zero_add, Ideal.hostDivf_def]
  show _ = Cert.Spec.lossAt X C lab p
  unfold Cert.Spec.lossAt Cert.Spec.nume
  -- the numerator: the sum over the columns of the squared differences
  refine congrArg (fun s => Ideal.div s _) (Finset.sum_congr rfl fun d _ => ?_)
  have e2 : Read.idx_main_v10 (ix1 p) d = ix2 p d := funext fun a => Fin.ext (by match a with | ⟨0, _⟩ => rfl | ⟨1, _⟩ => rfl)
  rw [e2, Read.val_main_v9_apply, ref_diff lab X L C hL p d]
  rfl

/-- Row i's contribution. -/
theorem ref_contrib (hL : ∀ i : Fin 65536, L (ix2 i 0) = BitVec.ofNat 32 (lab i).val) (hC : ∀ j, ∃ r : ℝ, C j = (r : EReal))
    (i : Fin 65536) (d : Fin 1024) :
    Read.val_main_v47 (F := Ideal) X L C W (ix2 i d) = Cert.Spec.contrib X C W lab i d := by
  -- the two broadcasts read the coefficient of row i
  have e1 : Read.idx_main_v46 (ix2 i d) = ix2 i 0 := funext fun a => Fin.ext (by match a with | ⟨0, _⟩ => rfl | ⟨1, _⟩ => rfl)
  have e2 : Read.idx_main_v45 (ix2 i (0 : Fin 1)) = ix1 i := funext fun a => Fin.ext (by match a with | ⟨0, _⟩ => rfl)
  rw [Read.val_main_v47_apply, Read.val_main_v46_apply, e1, Read.val_main_v45_apply, e2, Read.val_main_v44_apply]
  unfold Read.val_main_v43
  -- the gathered weight is W (lab i); the denominator and the difference are the specification's
  rw [gather_vec lab W (Read.val_main_v42 (F := Ideal) L) (fun i => (wrapped_idx lab L hL i).2.2.1) i,
    ref_den lab L C hL hC i, ref_diff lab X L C hL i d]
  rfl

/-- The second result is the updated centres. -/
theorem ref_out1 (hL : ∀ i : Fin 65536, L (ix2 i 0) = BitVec.ofNat 32 (lab i).val) (hC : ∀ j, ∃ r : ℝ, C j = (r : EReal)) :
    Read.val_main_v53 (F := Ideal) X L C W = Cert.Spec.out1 X C W lab := by
  funext j
  obtain ⟨c, d, rfl⟩ : ∃ c d, j = ix2 c d := ⟨j 0, j 1, eq_ix2 j⟩
  rw [Read.val_main_v53_apply, Read.val_main_v52_apply, Read.val_main_v51_apply, Read.val_main_cst_11_apply]
  unfold Read.val_main_v50
  -- the accumulating scatter into zeros: the sum of the contributions of the rows labelled c
  rw [scatterAdd_apply lab (Read.val_main_v48 (F := Ideal)) (Read.val_main_v49 (F := Ideal) L)
    (fun i => (wrapped_idx lab L hL i).2.2.2) (Read.val_main_v47 (F := Ideal) X L C W) c d,
    Read.val_main_v48_apply, Read.val_main_cst_10_apply]
  simp only [Ideal.ofBits_def, Ideal.ofBits_zero_f32, zero_add, Ideal.subf_def, Ideal.mulf_def]
  show _ = C (ix2 c d) - Cert.Spec.gamma * Cert.Spec.wdc X C W lab c d
  unfold Cert.Spec.wdc
  refine congrArg (fun s => C (ix2 c d) - Cert.Spec.gamma * s) (Finset.sum_congr rfl fun i _ => ?_)
  rw [ref_contrib lab X L C W hL hC i d]

end Cert.ReferenceIdeal.RefVal

end
-- ==== Proof.PreDecode.lean ====
/-
  The precondition read: every label is a class index in [0, 256), and every centre coordinate is a real number.
-/
import proofs.«409492_j58514634440869_1_alg».proof.Defs
import proofs.«409492_j58514634440869_1_alg».proof.Proof.Gen.Pre_finite_inputs
import Idealize.ShloMosaic.Lib.ReduceAll
import Idealize.ShloMosaic.Lib.StableHlo.Predicate
import Idealize.ShloMosaic.Lib.ValueIdx

noncomputable section

namespace Cert.Proof.Pre

open Idealize.ShloMosaic Idealize.SL.Sem Idealize.ShloMosaic.ValueIdx

variable (m : (ℓ : Loc Cert.KernelIdeal.nD Cert.KernelIdeal.τ Cert.KernelIdeal.sig) → Buf (Elt Ideal) ℓ)

/-- The rank-0 shape has one index. -/
private instance : Subsingleton Cert.Pre_finite_inputs.S_.Idx := ⟨fun a b => funext fun d => d.elim0⟩

/-- A one-bit word made from a truth value is 1 exactly when the truth value is true. -/
private theorem ofBool_one (b : Bool) : BitVec.ofBool b = 1#1 ↔ b = true := by cases b <;> decide

/-- A 32-bit word that is at least 0 and below 256 as a signed number is below 256 as an unsigned number. -/
private theorem toNat_lt_256 (w : BitVec 32) (h0 : IntOp.cmpi .sge w 0#32 = 1#1) (h1 : IntOp.cmpi .slt w 256#32 = 1#1) :
    w.toNat < 256 := by
  rw [IntOp.cmpi_sge] at h0
  rw [IntOp.cmpi_slt] at h1
  have z : (0#32 : BitVec 32).toInt = 0 := by decide
  have t : (256#32 : BitVec 32).toInt = 256 := by decide
  rw [z] at h0
  rw [t] at h1
  have hw : w.toInt = w.toNat := BitVec.toInt_eq_toNat_of_lt (BitVec.toInt_pos_iff.1 h0)
  omega

/-- An extended real whose absolute value max x (−x) is below +∞ is a real number. -/
private theorem real_of_abs_lt_top (x : EReal) (hx : max x (-x) < ⊤) : ∃ r : ℝ, x = (r : EReal) := by
  induction x using EReal.rec with
  | bot => exact absurd hx (by simp)
  | top => exact absurd hx (by simp)
  | coe r => exact ⟨r, rfl⟩

/-- The pattern 0x7F800000 denotes +∞. -/
private theorem inf_bits : Ideal.ofBits .f32 0x7F800000#32 = ⊤ := by simp [Ideal.ofBits, Ideal.ieee]

/-- An extended real whose absolute value tests below the word of +∞ is a real number. -/
private theorem real_of_cmp (x : EReal)
    (hx : Ideal.cmp .olt (max x (-x)) (Ideal.ofBits .f32 0x7F800000#32) = 1#1) : ∃ r : ℝ, x = (r : EReal) := by
  rw [inf_bits] at hx
  unfold Ideal.cmp at hx
  rw [ofBool_one] at hx
  exact real_of_abs_lt_top x (of_decide_eq_true hx)

/-- Under the precondition every label word, read unsigned, is below 256. -/
theorem label_lt (h : Cert.Pre_KernelIdeal m) (c : Dev Cert.KernelIdeal.nD) (i : Fin 65536) :
    (m ((c.tc : Thread Cert.KernelIdeal.nD Cert.KernelIdeal.τ).loc Cert.KernelIdeal.main_arg1) (ix2 i 0)).toNat < 256 := by
  have e := congrFun (h c) ValueIdx.ix0
  dsimp only [Cert.Pre_finite_inputs.fn, Cert.Pre_finite_inputs.fn_part1] at e
  -- the claim is a conjunction of four; the last is the reduction of the label test by "and" over both axes
  have e4 := (IntOp.andi_eq_one.1 e).2
  -- so the label test holds at every index, here at (i, 0)
  have e5 := Host.reduce_andi_all _ _ _ _ _ e4 (ix2 i 0)
  obtain ⟨h0, h1⟩ := IntOp.andi_eq_one.1 e5
  exact toNat_lt_256 _ h0 h1

/-- Under the precondition every centre coordinate is a real number. -/
theorem cluster_real (h : Cert.Pre_KernelIdeal m) (c : Dev Cert.KernelIdeal.nD)
    (j : Cert.KernelIdeal.S256x1024.Idx) :
    ∃ r : ℝ, m ((c.tc : Thread Cert.KernelIdeal.nD Cert.KernelIdeal.τ).loc Cert.KernelIdeal.main_arg2) j = (r : EReal) := by
  have e := congrFun (h c) ValueIdx.ix0
  dsimp only [Cert.Pre_finite_inputs.fn, Cert.Pre_finite_inputs.fn_part1] at e
  -- the second of the four conjuncts is the reduction of |C| < +∞ by "and" over both axes
  have e2 := (IntOp.andi_eq_one.1 (IntOp.andi_eq_one.1 (IntOp.andi_eq_one.1 e).1).1).2
  -- so |C[j]| < +∞ at every index j
  have e3 := Host.reduce_andi_all _ _ _ _ _ e2 j
  exact real_of_cmp (m ((c.tc : Thread Cert.KernelIdeal.nD Cert.KernelIdeal.τ).loc Cert.KernelIdeal.main_arg2) j) e3

end Cert.Proof.Pre

end
-- ==== Proof.lean ====
/-
  A clustering layer with a per-class loss and a centre update, tiled over 65536 rows in two halves of sixteen tiles
  of 2048 rows, against its array-level reference.

  Per row i with label lab i the loss is  ‖x_i − c_{lab i}‖² / den(lab i),  den(c) = Σ_c' max(‖c‖² + ‖c'‖² − 2⟨c, c'⟩, 0) + 1,
  and centre c moves by  −γ · Σ_{i : lab i = c} (w_{lab i} / den(lab i)) · (x_i − c_{lab i}).
  The tiled program gathers c_{lab i}, den(lab i) and w_{lab i} by multiplying the one-hot matrix of a tile's labels into
  the tables, and scatters by multiplying its transpose into the contributions, accumulating over a half's tiles and
  adding the two halves afterwards; the reference gathers by index and scatters with an accumulating scatter. A one-hot
  row picks one entry of a sum, and sums of extended reals regroup freely, so the two agree whenever every label is a
  class index in [0, 256): that range is the statement's precondition (outside it the reference indexes out of range
  while the one-hot row is zero). The reference doubles the centres before the inner product, the tiled program doubles
  the inner product; these agree over finite centres, which the precondition also gives.
  No rewrite was applied in printing the idealized program, so the idealization conjunct is trivial.
-/
import proofs.«409492_j58514634440869_1_alg».proof.Defs
import proofs.«409492_j58514634440869_1_alg».proof.Proof.Gen.Kernel
import proofs.«409492_j58514634440869_1_alg».proof.Proof.Gen.Kernel.Skeleton
import proofs.«409492_j58514634440869_1_alg».proof.Proof.Gen.Kernel.Launch
import proofs.«409492_j58514634440869_1_alg».proof.Proof.Gen.Kernel.Points
import proofs.«409492_j58514634440869_1_alg».proof.Proof.Gen.Kernel.Frame
import proofs.«409492_j58514634440869_1_alg».proof.Proof.Gen.KernelIdeal
import proofs.«409492_j58514634440869_1_alg».proof.Proof.Gen.KernelIdeal.Skeleton
import proofs.«409492_j58514634440869_1_alg».proof.Proof.Gen.KernelIdeal.Launch
import proofs.«409492_j58514634440869_1_alg».proof.Proof.Gen.KernelIdeal.Points
import proofs.«409492_j58514634440869_1_alg».proof.Proof.Gen.KernelIdeal.Frame
import proofs.«409492_j58514634440869_1_alg».proof.Proof.Gen.ReferenceIdeal
import proofs.«409492_j58514634440869_1_alg».proof.Proof.Gen.ReferenceIdeal.Run
import proofs.«409492_j58514634440869_1_alg».proof.Proof.Gen.ReferenceIdeal.Read
import proofs.«409492_j58514634440869_1_alg».proof.Proof.Gen.Pre_finite_inputs
import proofs.«409492_j58514634440869_1_alg».proof.Proof.KRun
import proofs.«409492_j58514634440869_1_alg».proof.Proof.RefValue
import proofs.«409492_j58514634440869_1_alg».proof.Proof.PreDecode
import Idealize.ShloMosaic.Adequacy
import Idealize.ShloMosaic.Init

noncomputable section

namespace Cert.Proof

open Idealize.ShloMosaic Idealize.SL.Sem Idealize.ShloMosaic.ValueIdx

/-- The word-level program terminates without fault and leaves its arguments as they were. -/
theorem frame_k : Cert.frame_Kernel := fun m ρ _ => Cert.Kernel.Gen.frame m ρ

/-- So does the idealized program. -/
theorem frame_ki : Cert.frame_KernelIdeal := fun m ρ _ => Cert.KernelIdeal.Gen.frame m ρ

/-- The reference is a straight line of array operations: its run, with the results forgotten. -/
theorem frame_ri : Cert.frame_ReferenceIdeal := fun m ρ _ =>
  (θ_run Cert.ReferenceIdeal.defs _ _).mono (fun _ h c => (h c).2.2) (Cert.ReferenceIdeal.Value.run (F := Ideal) m ρ)

/-- Row i's label on device c, as a class index: in range by the precondition. -/
def labOf (m : (ℓ : Loc Cert.KernelIdeal.nD Cert.KernelIdeal.τ Cert.KernelIdeal.sig) → Buf (Elt Ideal) ℓ)
    (h : Cert.Pre_KernelIdeal m) (c : Dev Cert.KernelIdeal.nD) (i : Fin 65536) : Fin 256 :=
  ⟨_, Pre.label_lt m h c i⟩

/-- Both programs end at the specification's two arrays of the arguments, read at the labels the precondition bounds. -/
theorem algebraic : Cert.algebraic_KernelIdeal_ReferenceIdeal := by
  intro m ρ m' ρ' hpre hagree
  have hlab : ∀ c, Cert.KernelIdeal.KVal.Labelled m c (labOf m hpre c) := fun c i =>
    BitVec.eq_of_toNat_eq (by rw [BitVec.toNat_ofNat]; exact (Nat.mod_eq_of_lt (BitVec.isLt _)).symm)
  refine ⟨fun c => Cert.Spec.out0 (Cert.KernelIdeal.KVal.Xa m c) (Cert.KernelIdeal.KVal.Ca m c) (labOf m hpre c),
    fun c => Cert.Spec.out1 (Cert.KernelIdeal.KVal.Xa m c) (Cert.KernelIdeal.KVal.Ca m c) (Cert.KernelIdeal.KVal.Wa m c) (labOf m hpre c),
    Cert.KernelIdeal.KVal.run m ρ (labOf m hpre) hlab, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · refine (Cert.ReferenceIdeal.Read.val_main_v36_eq _ _ _).trans ?_
    rw [(hagree c).1, (hagree c).2.1, (hagree c).2.2.1]
    exact Cert.ReferenceIdeal.RefVal.ref_out0 (labOf m hpre c) _ _ _ (hlab c) (Pre.cluster_real m hpre c)
  · refine (Cert.ReferenceIdeal.Read.val_main_v53_eq _ _ _ _).trans ?_
    rw [(hagree c).1, (hagree c).2.1, (hagree c).2.2.1, (hagree c).2.2.2]
    exact Cert.ReferenceIdeal.RefVal.ref_out1 (labOf m hpre c) _ _ _ _ (hlab c) (Pre.cluster_real m hpre c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
